-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x4096x64 : Shape := ⟨4, ![2, 16, 4096, 64]⟩
abbrev S2x4096 : Shape := ⟨2, ![2, 4096]⟩
abbrev S2048 : Shape := ⟨1, ![2048]⟩
abbrev S_ : Shape := ⟨0, ![]⟩

class Facts : Prop where
  bcast_S_S2x16x4096x64 : S_.BroadcastsInDim S2x16x4096x64 (![] : Fin 0 → Fin S2x16x4096x64.rank)
  reducesTo_S2x16x4096x64_S_d0_1_2_3 : S2x16x4096x64.ReducesTo [0, 1, 2, 3] S_
  h_S_ : 0 < S_.numel
  bcast_S_S2x4096 : S_.BroadcastsInDim S2x4096 (![] : Fin 0 → Fin S2x4096.rank)
  reducesTo_S2x4096_S_d0_1 : S2x4096.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : IVec S2048 32) (main_arg5 : IVec S2048 32) (main_v13 : IVec S_ 1) (main_v16 : IVec S2x4096 1) : IVec S_ 1 :=
  let main_c_5 : IVec S_ 1 := constantI S_ 1 1#1
  let main_v17 : IVec S_ 1 := (fun x v => Host.reduce IntOp.andi x v reducesTo_S2x4096_S_d0_1 h_S_) main_v16 main_c_5
  let main_v18 : IVec S_ 1 := andi main_v13 main_v17
  let main_c_6 : IVec S_ 32 := constantI S_ 32 0#32
  let main_v19 : IVec S2048 32 := broadcastInDim S2048 ![] bcast_S_S2048 main_c_6
  let main_v20 : IVec S2048 1 := cmpi .sge main_arg4 main_v19
  let main_c_7 : IVec S_ 32 := constantI S_ 32 4096#32
  let main_v21 : IVec S2048 32 := broadcastInDim S2048 ![] bcast_S_S2048 main_c_7
  let main_v22 : IVec S2048 1 := cmpi .slt main_arg4 main_v21
  let main_v23 : IVec S2048 1 := andi main_v20 main_v22
  let main_c_8 : IVec S_ 1 := constantI S_ 1 1#1
  let main_v24 : IVec S_ 1 := (fun x v => Host.reduce IntOp.andi x v reducesTo_S2048_S_d0 h_S_) main_v23 main_c_8
  let main_v25 : IVec S_ 1 := andi main_v18 main_v24
  let main_c_9 : IVec S_ 32 := constantI S_ 32 0#32
  let main_v26 : IVec S2048 32 := broadcastInDim S2048 ![] bcast_S_S2048 main_c_9
  let main_v27 : IVec S2048 1 := cmpi .sge main_arg5 main_v26
  let main_c_10 : IVec S_ 32 := constantI S_ 32 4096#32
  let main_v28 : IVec S2048 32 := broadcastInDim S2048 ![] bcast_S_S2048 main_c_10
  let main_v29 : IVec S2048 1 := cmpi .slt main_arg5 main_v28
  let main_v30 : IVec S2048 1 := andi main_v27 main_v29
  let main_c_11 : IVec S_ 1 := constantI S_ 1 1#1
  let main_v31 : IVec S_ 1 := (fun x v => Host.reduce IntOp.andi x v reducesTo_S2048_S_d0 h_S_) main_v30 main_c_11
  let main_v32 : IVec S_ 1 := andi main_v25 main_v31
  main_v32

def fn {F : FTy → Type} [FloatOps F] (main_arg0 : FVec F S2x16x4096x64 .f32) (main_arg1 : FVec F S2x16x4096x64 .f32) (main_arg2 : FVec F S2x16x4096x64 .f32) (main_arg3 : FVec F S2x4096 .f32) (main_arg4 : IVec S2048 32) (main_arg5 : IVec S2048 32) : IVec S_ 1 :=
  let main_v0 : FVec F S2x16x4096x64 .f32 := Host.absf main_arg0
  let main_cst : FVec F S_ .f32 := constant S_ .f32 0x7F800000#32
  let main_v1 : FVec F S2x16x4096x64 .f32 := broadcastInDim S2x16x4096x64 ![] bcast_S_S2x16x4096x64 main_cst
  let main_v2 : IVec S2x16x4096x64 1 := cmpf .olt main_v0 main_v1
  let main_c : IVec S_ 1 := constantI S_ 1 1#1
  let main_v3 : IVec S_ 1 := (fun x v => Host.reduce IntOp.andi x v reducesTo_S2x16x4096x64_S_d0_1_2_3 h_S_) main_v2 main_c
  let main_v4 : FVec F S2x16x4096x64 .f32 := Host.absf main_arg1
  let main_cst_0 : FVec F S_ .f32 := constant S_ .f32 0x7F800000#32
  let main_v5 : FVec F S2x16x4096x64 .f32 := broadcastInDim S2x16x4096x64 ![] bcast_S_S2x16x4096x64 main_cst_0
  let main_v6 : IVec S2x16x4096x64 1 := cmpf .olt main_v4 main_v5
  let main_c_1 : IVec S_ 1 := constantI S_ 1 1#1
  let main_v7 : IVec S_ 1 := (fun x v => Host.reduce IntOp.andi x v reducesTo_S2x16x4096x64_S_d0_1_2_3 h_S_) main_v6 main_c_1
  let main_v8 : IVec S_ 1 := andi main_v3 main_v7
  let main_v9 : FVec F S2x16x4096x64 .f32 := Host.absf main_arg2
  let main_cst_2 : FVec F S_ .f32 := constant S_ .f32 0x7F800000#32
  let main_v10 : FVec F S2x16x4096x64 .f32 := broadcastInDim S2x16x4096x64 ![] bcast_S_S2x16x4096x64 main_cst_2
  let main_v11 : IVec S2x16x4096x64 1 := cmpf .olt main_v9 main_v10
  let main_c_3 : IVec S_ 1 := constantI S_ 1 1#1
  let main_v12 : IVec S_ 1 := (fun x v => Host.reduce IntOp.andi x v reducesTo_S2x16x4096x64_S_d0_1_2_3 h_S_) main_v11 main_c_3
  let main_v13 : IVec S_ 1 := andi main_v8 main_v12
  let main_v14 : FVec F S2x4096 .f32 := Host.absf main_arg3
  let main_cst_4 : FVec F S_ .f32 := constant S_ .f32 0x7F800000#32
  let main_v15 : FVec F S2x4096 .f32 := broadcastInDim S2x4096 ![] bcast_S_S2x4096 main_cst_4
  let main_v16 : IVec S2x4096 1 := cmpf .olt main_v14 main_v15
  fn_part1 (F := F) main_arg4 main_arg5 main_v13 main_v16
-- ==== Kernel.lean ====
abbrev S2x16x4096x64 : Shape := ⟨4, ![2, 16, 4096, 64]⟩
abbrev S2x4096 : Shape := ⟨2, ![2, 4096]⟩
abbrev S2048 : Shape := ⟨1, ![2048]⟩
abbrev S32x4096x64 : Shape := ⟨3, ![32, 4096, 64]⟩
abbrev S1x2048 : Shape := ⟨2, ![1, 2048]⟩
abbrev S1x4096x64 : Shape := ⟨3, ![1, 4096, 64]⟩
abbrev S512x2048 : Shape := ⟨2, ![512, 2048]⟩
abbrev S2048x64 : Shape := ⟨2, ![2048, 64]⟩
abbrev S1x512x64 : Shape := ⟨3, ![1, 512, 64]⟩
abbrev S512x64 : Shape := ⟨2, ![512, 64]⟩
abbrev S2048x1 : Shape := ⟨2, ![2048, 1]⟩
abbrev S64 : Shape := ⟨1, ![64]⟩
abbrev S1x64 : Shape := ⟨2, ![1, 64]⟩
abbrev S64x64 : Shape := ⟨2, ![64, 64]⟩

abbrev nBuf : Space → Nat
  | .hbm => 12
  | .vmem => 8
  | .smem => 0
  | _ => 0

abbrev bufTy : (tb : Table) → Fin (tcTables nBuf tb) → BufTy
  | .hbm, ⟨0, _⟩ => ⟨S2x16x4096x64, .f32⟩
  | .hbm, ⟨1, _⟩ => ⟨S2x16x4096x64, .f32⟩
  | .hbm, ⟨2, _⟩ => ⟨S2x16x4096x64, .f32⟩
  | .hbm, ⟨3, _⟩ => ⟨S2x4096, .f32⟩
  | .hbm, ⟨4, _⟩ => ⟨S2048, .i32⟩
  | .hbm, ⟨5, _⟩ => ⟨S2048, .i32⟩
  | .hbm, ⟨6, _⟩ => ⟨S32x4096x64, .f32⟩
  | .hbm, ⟨7, _⟩ => ⟨S32x4096x64, .f32⟩
  | .hbm, ⟨8, _⟩ => ⟨S1x2048, .i32⟩
  | .hbm, ⟨9, _⟩ => ⟨S1x2048, .i32⟩
  | .hbm, ⟨10, _⟩ => ⟨S32x4096x64, .f32⟩
  | .hbm, ⟨11, _⟩ => ⟨S2x16x4096x64, .f32⟩
  | .local _ .vmem, ⟨0, _⟩ => ⟨S1x2048, .i32⟩
  | .local _ .vmem, ⟨1, _⟩ => ⟨S1x2048, .i32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x4096x64, .f32⟩
  | .local _ .vmem, ⟨7, _⟩ => ⟨S1x4096x64, .f32⟩
  | _, _ => ⟨S2x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v44 : BitVec 32 := Scalar.muli arg6 c512_i32
  v44
def k0_off1 (k0_t1 : Fin k0_t1_loop.trips) : Fin 3 → Nat :=
  let c0_19 : Index := 0#32
  let c0_i32 : BitVec 32 := 0#32
  let c1_i32 : BitVec 32 := 1#32
  let arg6 : BitVec 32 := Scf.iv c0_i32 c1_i32 k0_t1
  let c512_i32 : BitVec 32 := 512#32
  let v44 : BitVec 32 := Scalar.muli arg6 c512_i32
  let v45 : BitVec 32 := v44
  let v60 : Index := Scalar.indexCast v45
  let c0_20 : Index := 0#32
  ![0, v60.toNat, 0]
@[reducible] def k0_t2_loop : Scf.Loop 32 :=
  let c0_i32_15 : BitVec 32 := 0#32
  let c8_i32_16 : BitVec 32 := 8#32
  let v43 : BitVec 32 := Scalar.addi c0_i32_15 c8_i32_16
  let c1_i32_17 : BitVec 32 := 1#32
  ⟨c0_i32_15, v43, c1_i32_17⟩
def k0_mult2 (k0_t2 : Fin k0_t2_loop.trips) : BitVec 32 :=
  let c0_i32_15 : BitVec 32 := 0#32
  let c1_i32_17 : BitVec 32 := 1#32
  let arg6 : BitVec 32 := Scf.iv c0_i32_15 c1_i32_17 k0_t2
  let c512_i32 : BitVec 32 := 512#32
  let v44 : BitVec 32 := Scalar.muli arg6 c512_i32
  v44
def k0_off2 (k0_t2 : Fin k0_t2_loop.trips) : Fin 3 → Nat :=
  let c0_20 : Index := 0#32
  let c0_i32_15 : BitVec 32 := 0#32
  let c1_i32_17 : BitVec 32 := 1#32
  let arg6 : BitVec 32 := Scf.iv c0_i32_15 c1_i32_17 k0_t2
  let c512_i32 : BitVec 32 := 512#32
  let v44 : BitVec 32 := Scalar.muli arg6 c512_i32
  let v45 : BitVec 32 := v44
  let v55 : Index := Scalar.indexCast v45
  let c0_21 : Index := 0#32
  ![0, v55.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x16x4096x64_S32x4096x64 : S2x16x4096x64.ShapeCasts S32x4096x64
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S512x2048_d0_w32 : S512x2048.Iotas .tc 32 [0]
  broadcasts_S1x2048_S512x2048 : S1x2048.Broadcasts S512x2048
  natLt_1_32 : 1 < 32
  bitsLt_bf16_f32 : FTy.bits .bf16 < FTy.bits .f32
  h_S1x512x64 : 0 < S1x512x64.numel
  shapeCasts_S1x512x64_S512x64 : S1x512x64.ShapeCasts S512x64
  reduces_S2048x64_S2048 : S2048x64.Reduces [1] S2048
  shapeCasts_S2048_S2048x1 : S2048.ShapeCasts S2048x1
  broadcasts_S2048x1_S2048x64 : S2048x1.Broadcasts S2048x64
  reduces_S2048x64_S64 : S2048x64.Reduces [0] S64
  shapeCasts_S64_S1x64 : S64.ShapeCasts S1x64
  broadcasts_S1x64_S2048x64 : S1x64.Broadcasts S2048x64
  shapeCasts_S512x64_S1x512x64 : S512x64.ShapeCasts S1x512x64
  shapeCasts_S32x4096x64_S2x16x4096x64 : S32x4096x64.ShapeCasts S2x16x4096x64
  dot_S512x2048_S512x64_S2048x64_0_0_1_1_n_n_wf : DotDims.WF S512x2048 S512x64 S2048x64 [0] [0] [1] [1] [] []
  dot_S2048x64_S2048x64_S64x64_0_0_1_1_n_n_wf : DotDims.WF S2048x64 S2048x64 S64x64 [0] [0] [1] [1] [] []
  dot_S2048x64_S64x64_S2048x64_1_0_0_1_n_n_wf : DotDims.WF S2048x64 S64x64 S2048x64 [1] [0] [0] [1] [] []
  dot_S512x2048_S2048x64_S512x64_1_0_0_1_n_n_wf : DotDims.WF S512x2048 S2048x64 S512x64 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x64.size a ≤ S1x4096x64.size a
  k0_t2_ok : k0_t2_loop.OK
  k0_mult2_dvd : ∀ k0_t2 : Fin k0_t2_loop.trips, 512 ∣ (k0_mult2 k0_t2).toNat
  k0_off2_inb : ∀ k0_t2 : Fin k0_t2_loop.trips, ∀ a, (k0_off2 k0_t2) a + S1x512x64.size a ≤ S1x4096x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .i32 = 32 ∨ (Rect.block (s := S1x2048) S1x2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .i32 = 32 ∨ (Rect.block (s := S1x2048) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S32x4096x64.size a
  hwx0_2 : ∀ i : grid0.Coords, EltTy.bits .f32 = 32 ∨ (Rect.block (s := S32x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x64.size a ≤ S32x4096x64.size a
  hwx0_3 : ∀ i : grid0.Coords, EltTy.bits .f32 = 32 ∨ (Rect.block (s := S32x4096x64) S1x4096x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x64.size a ≤ S32x4096x64.size a
  hwx0_4 : ∀ i : grid0.Coords, EltTy.bits .f32 = 32 ∨ (Rect.block (s := S32x4096x64) S1x4096x64.size (cc0_transform_4 i) (hinb0_4 i)).WholeWords (EltTy.packing .f32)

variable [Facts₀]

def dot_S512x2048_S512x64_S2048x64_0_0_1_1_n_n : DotDims S512x2048 S512x64 S2048x64 where
  lhsContracting := [0]
  rhsContracting := [0]
  lhsNonContracting := [1]
  rhsNonContracting := [1]
  lhsBatch := []
  rhsBatch := []
  wf := dot_S512x2048_S512x64_S2048x64_0_0_1_1_n_n_wf
def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v2) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x4096x64 : Shape := ⟨4, ![2, 16, 4096, 64]⟩
abbrev S2x4096 : Shape := ⟨2, ![2, 4096]⟩
abbrev S2048 : Shape := ⟨1, ![2048]⟩
abbrev S_ : Shape := ⟨0, ![]⟩
abbrev S2048x1 : Shape := ⟨2, ![2048, 1]⟩
abbrev S2x16x2048x64 : Shape := ⟨4, ![2, 16, 2048, 64]⟩
abbrev S2x16x2048 : Shape := ⟨3, ![2, 16, 2048]⟩
abbrev S2x16x2048x1 : Shape := ⟨4, ![2, 16, 2048, 1]⟩
abbrev S2x16x64 : Shape := ⟨3, ![2, 16, 64]⟩
abbrev S2x16x1x64 : Shape := ⟨4, ![2, 16, 1, 64]⟩
abbrev S2x16x64x64 : Shape := ⟨4, ![2, 16, 64, 64]⟩

abbrev nBuf : Space → Nat
  | .hbm => 72
  | .vmem => 0
  | .smem => 0
  | _ => 0

abbrev bufTy : (tb : Table) → Fin (tcTables nBuf tb) → BufTy
  | .hbm, ⟨0, _⟩ => ⟨S2x16x4096x64, .f32⟩
  | .hbm, ⟨1, _⟩ => ⟨S2x16x4096x64, .f32⟩
  | .hbm, ⟨2, _⟩ => ⟨S2x16x4096x64, .f32⟩
  | .hbm, ⟨3, _⟩ => ⟨S2x4096, .f32⟩
  | .hbm, ⟨4, _⟩ => ⟨S2048, .i32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S2048x1, .i32⟩
  | .hbm, ⟨14, _⟩ => ⟨S2x16x2048x64, .f32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048x1, .i32⟩
  | .hbm, ⟨23, _⟩ => ⟨S2x16x2048x64, .f32⟩
  | .hbm, ⟨24, _⟩ => ⟨S_, .f32⟩
  | .hbm, ⟨25, _⟩ => ⟨S2x16x2048, .f32⟩
  | .hbm, ⟨26, _⟩ => ⟨S_, .f32⟩
  | .hbm, ⟨27, _⟩ => ⟨S2x16x2048, .f32⟩
  | .hbm, ⟨28, _⟩ => ⟨S2x16x2048, .f32⟩
  | .hbm, ⟨29, _⟩ => ⟨S2x16x2048x1, .f32⟩
  | .hbm, ⟨30, _⟩ => ⟨S2x16x2048x64, .f32⟩
  | .hbm, ⟨31, _⟩ => ⟨S2x16x2048x64, .f32⟩
  | .hbm, ⟨32, _⟩ => ⟨S2x16x2048x64, .f32⟩
  | .hbm, ⟨33, _⟩ => ⟨S_, .f32⟩
  | .hbm, ⟨34, _⟩ => ⟨S2x16x2048, .f32⟩
  | .hbm, ⟨35, _⟩ => ⟨S2x16x2048x1, .f32⟩
  | .hbm, ⟨36, _⟩ => ⟨S2x16x2048x64, .f32⟩
  | .hbm, ⟨37, _⟩ => ⟨S2x16x2048x64, .f32⟩
  | .hbm, ⟨38, _⟩ => ⟨S_, .f32⟩
  | .hbm, ⟨39, _⟩ => ⟨S2x16x64, .f32⟩
  | .hbm, ⟨40, _⟩ => ⟨S_, .f32⟩
  | .hbm, ⟨41, _⟩ => ⟨S2x16x64, .f32⟩
  | .hbm, ⟨42, _⟩ => ⟨S2x16x64, .f32⟩
  | .hbm, ⟨43, _⟩ => ⟨S2x16x1x64, .f32⟩
  | .hbm, ⟨44, _⟩ => ⟨S2x16x2048x64, .f32⟩
  | .hbm, ⟨45, _⟩ => ⟨S2x16x2048x64, .f32⟩
  | .hbm, ⟨46, _⟩ => ⟨S2x16x2048x64, .f32⟩
  | .hbm, ⟨47, _⟩ => ⟨S_, .f32⟩
  | .hbm, ⟨48, _⟩ => ⟨S2x16x64, .f32⟩
  | .hbm, ⟨49, _⟩ => ⟨S2x16x1x64, .f32⟩
  | .hbm, ⟨50, _⟩ => ⟨S2x16x2048x64, .f32⟩
  | .hbm, ⟨51, _⟩ => ⟨S2x16x2048x64, .f32⟩
  | .hbm, ⟨52, _⟩ => ⟨S2x16x64x64, .f32⟩
  | .hbm, ⟨53, _⟩ => ⟨S2x16x2048x64, .f32⟩
  | .hbm, ⟨54, _⟩ => ⟨S_, .f32⟩
  | .hbm, ⟨55, _⟩ => ⟨S2x16x2048x64, .f32⟩
  | .hbm, ⟨56, _⟩ => ⟨S2x16x2048x64, .f32⟩
  | .hbm, ⟨57, _⟩ => ⟨S_, .f32⟩
  | .hbm, ⟨58, _⟩ => ⟨S2x16x2048x64, .f32⟩
  | .hbm, ⟨59, _⟩ => ⟨S2x16x2048x64, .f32⟩
  | .hbm, ⟨60, _⟩ => ⟨S2x16x2048x64, .f32⟩
  | .hbm, ⟨61, _⟩ => ⟨S_, .f32⟩
  | .hbm, ⟨62, _⟩ => ⟨S2x16x4096x64, .f32⟩
  | .hbm, ⟨63, _⟩ => ⟨S_, .i32⟩
  | .hbm, ⟨64, _⟩ => ⟨S2048, .i32⟩
  | .hbm, ⟨65, _⟩ => ⟨S2048, .i1⟩
  | .hbm, ⟨66, _⟩ => ⟨S_, .i32⟩
  | .hbm, ⟨67, _⟩ => ⟨S2048, .i32⟩
  | .hbm, ⟨68, _⟩ => ⟨S2048, .i32⟩
  | .hbm, ⟨69, _⟩ => ⟨S2048, .i32⟩
  | .hbm, ⟨70, _⟩ => ⟨S2048x1, .i32⟩
  | .hbm, ⟨71, _⟩ => ⟨S2x16x4096x64, .f32⟩
  | _, _ => ⟨S2x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_c_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  reducesTo_S2x16x2048x64_S2x16x2048_d3 : S2x16x2048x64.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x64_0_1_2_3 : S2x16x2048x1.BroadcastsInDim S2x16x2048x64 (![0, 1, 2, 3] : Fin 4 → Fin S2x16x2048x64.rank)
  reducesTo_S2x16x2048x64_S2x16x64_d2 : S2x16x2048x64.ReducesTo [2] S2x16x64
  bcast_S_S2x16x64 : S_.BroadcastsInDim S2x16x64 (![] : Fin 0 → Fin S2x16x64.rank)
  bcast_S2x16x64_S2x16x1x64_0_1_3 : S2x16x64.BroadcastsInDim S2x16x1x64 (![0, 1, 3] : Fin 3 → Fin S2x16x1x64.rank)
  bcast_S2x16x1x64_S2x16x2048x64_0_1_2_3 : S2x16x1x64.BroadcastsInDim S2x16x2048x64 (![0, 1, 2, 3] : Fin 4 → Fin S2x16x2048x64.rank)
  bcast_S_S2x16x2048x64 : S_.BroadcastsInDim S2x16x2048x64 (![] : Fin 0 → Fin S2x16x2048x64.rank)
  bcast_S_S2x16x4096x64 : S_.BroadcastsInDim S2x16x4096x64 (![] : Fin 0 → Fin S2x16x4096x64.rank)
  gather_S2x16x4096x64_S2048x1_S2x16x2048x64_013_2_n_n_2_1_216164_wf : GatherDims.WF S2x16x4096x64 S2048x1 S2x16x2048x64 [0, 1, 3] [2] [] [2] [] 1 ![2, 16, 1, 64]
  dot_S2x16x2048x64_S2x16x2048x64_S2x16x64x64_2_2_3_3_01_01_wf : DotDims.WF S2x16x2048x64 S2x16x2048x64 S2x16x64x64 [2] [2] [3] [3] [0, 1] [0, 1]
  dot_S2x16x2048x64_S2x16x64x64_S2x16x2048x64_3_2_2_3_01_01_wf : DotDims.WF S2x16x2048x64 S2x16x64x64 S2x16x2048x64 [3] [2] [2] [3] [0, 1] [0, 1]
  scatter_S2x16x4096x64_S2048x1_S2x16x2048x64_013_2_2_1_wf : ScatterDims.WF S2x16x4096x64 S2048x1 S2x16x2048x64 [0, 1, 3] [2] [2] 1

variable [Facts₀]

def gather_S2x16x4096x64_S2048x1_S2x16x2048x64_013_2_n_n_2_1_216164 : GatherDims S2x16x4096x64 S2048x1 S2x16x2048x64 where
  offsetDims := [0, 1, 3]
  collapsedSliceDims := [2]
  operandBatchingDims := []
  startIndicesBatchingDims := []
  startIndexMap := [2]
  indexVectorDim := 1
  sliceSizes := ![2, 16, 1, 64]
  wf := gather_S2x16x4096x64_S2048x1_S2x16x2048x64_013_2_n_n_2_1_216164_wf
def dot_S2x16x2048x64_S2x16x2048x64_S2x16x64x64_2_2_3_3_01_01 : DotDims S2x16x2048x64 S2x16x2048x64 S2x16x64x64 where
  lhsContracting := [2]
  rhsContracting := [2]
  lhsNonContracting := [3]
  rhsNonContracting := [3]
  lhsBatch := [0, 1]
  rhsBatch := [0, 1]
  wf := dot_S2x16x2048x64_S2x16x2048x64_S2x16x64x64_2_2_3_3_01_01_wf
def dot_S2x16x2048x64_S2x16x64x64_S2x16x2048x64_3_2_2_3_01_01 : DotDims S2x16x2048x64 S2x16x64x64 S2x16x2048x64 where
  lhsContracting := [3]
  rhsContracting := [2]
  lhsNonContracting := [2]
  rhsNonContracting := [3]
  lhsBatch := [0, 1]
  rhsBatch := [0, 1]
  wf := dot_S2x16x2048x64_S2x16x64x64_S2x16x2048x64_3_2_2_3_01_01_wf
def scatter_S2x16x4096x64_S2048x1_S2x16x2048x64_013_2_2_1 : ScatterDims S2x16x4096x64 S2048x1 S2x16x2048x64 where
  updateWindowDims := [0, 1, 3]
  insertedWindowDims := [2]
  scatterDimsToOperandDims := [2]
  indexVectorDim := 1
  wf := scatter_S2x16x4096x64_S2048x1_S2x16x2048x64_013_2_2_1_wf

class Facts : Prop extends Facts₀ where

variable [Facts]
-- ==== Proof.Spec.lean ====
/-
  The function both programs compute, written once over plain index functions.

  For one (batch, head) pair let `x` and `y` be the query and value planes, [4096, 64] each, and let
  `rq`, `rk` name the 2048 sampled rows of each. With `q j = x (rq j)` and `v j = y (rk j)`:

    rowSm q   the softmax of each sampled query row over its 64 features,
    colSm q   the softmax of `rowSm q` down each feature column, over the 2048 samples,
    ctx       the 64 x 64 product  (colSm q)ᵀ · v,
    attn      the product  (rowSm q) · ctx,
    upd       4 · attn + 2 · v   (the scales 4096² / 2048² and 4096 / 2048),

  and the output plane at row `s` is the sum of the update rows `j` whose sampled query row is `s`
  (rows nobody samples stay zero, rows sampled several times add up).

  Each softmax is spelt as both programs compute it: the maximum folded from -∞ and joined with -∞ once
  more, the exponentials of the differences, their sum, the quotient. The float words stay words:
  the same word stands on both sides and is never evaluated.
-/
import Idealize.ShloMosaic.PureOps.Ideal
import Idealize.ShloMosaic.PureOps.Ideal.Laws
import Idealize.ShloMosaic.Lib.ValueIdx

noncomputable section

namespace Cert.SampledAttn

open Idealize.ShloMosaic Idealize.ShloMosaic.ValueIdx

/-- The word of -∞, the start of both maxima. -/
abbrev negInf : EReal := Ideal.ofBits .f32 0xFF800000#32
/-- The word of 4 = 4096² / (2048 · 2048). -/
abbrev four : EReal := Ideal.ofBits .f32 0x40800000#32
/-- The word of 2 = 4096 / 2048. -/
abbrev two : EReal := Ideal.ofBits .f32 0x40000000#32

section Plane

variable (q v : Fin 2048 → Fin 64 → EReal)

/-- The largest feature of sampled row `j`. -/
def rowMax (j : Fin 2048) : EReal := max negInf ((Finset.univ : Finset (Fin 64)).fold max negInf (fun d => q j d))
/-- The shifted exponentials of row `j`. -/
def rowExp (j : Fin 2048) (d : Fin 64) : EReal := Ideal.exp (q j d - rowMax q j)
/-- Their sum over the 64 features. -/
def rowSum (j : Fin 2048) : EReal := ∑ d : Fin 64, rowExp q j d
/-- The softmax over the features. -/
def rowSm (j : Fin 2048) (d : Fin 64) : EReal := Ideal.div (rowExp q j d) (rowSum q j)
/-- The largest entry of feature column `d` of `rowSm`. -/
def colMax (d : Fin 64) : EReal := max negInf ((Finset.univ : Finset (Fin 2048)).fold max negInf (fun j => rowSm q j d))
/-- The shifted exponentials of column `d`. -/
def colExp (j : Fin 2048) (d : Fin 64) : EReal := Ideal.exp (rowSm q j d - colMax q d)
/-- Their sum over the 2048 samples. -/
def colSum (d : Fin 64) : EReal := ∑ j : Fin 2048, colExp q j d
/-- The softmax of `rowSm` over the samples. -/
def colSm (j : Fin 2048) (d : Fin 64) : EReal := Ideal.div (colExp q j d) (colSum q d)
/-- The 64 x 64 context: `colSm` transposed times the sampled values. -/
def ctx (d e : Fin 64) : EReal := ∑ j : Fin 2048, colSm q j d * v j e
/-- `rowSm` times the context. -/
def attn (j : Fin 2048) (e : Fin 64) : EReal := ∑ d : Fin 64, rowSm q j d * ctx q v d e
/-- The update row: 4 · attn + 2 · v. -/
def upd (j : Fin 2048) (e : Fin 64) : EReal := four * attn q v j e + two * v j e

end Plane

/-- One (batch, head) plane of the result from its query plane `x` and value plane `y`: row `s` is the
    sum of the update rows whose sampled query row is `s`. -/
def planeOut (x y : Fin 4096 → Fin 64 → EReal) (rq rk : Fin 2048 → Fin 4096) (s : Fin 4096) (e : Fin 64) : EReal :=
  ∑ j : Fin 2048, if rq j = s then upd (fun j d => x (rq j) d) (fun j d => y (rk j) d) j e else 0

/-- The whole [2, 16, 4096, 64] result. -/
def result (Q V : (⟨4, ![2, 16, 4096, 64]⟩ : Shape).Idx → EReal) (rq rk : Fin 2048 → Fin 4096) :
    (⟨4, ![2, 16, 4096, 64]⟩ : Shape).Idx → EReal := fun i =>
  planeOut (fun s d => Q (ix4 (i 0) (i 1) s d)) (fun s d => V (ix4 (i 0) (i 1) s d)) rq rk (i 2) (i 3)

/-- A sum against a 0/1 selector is the selected terms' sum: on the extended reals `0 · a = 0` and
    `1 · a = a` for every `a`, infinite ones included. -/
theorem sum_select_mul {ι : Type} [Fintype ι] (p : ι → Prop) [DecidablePred p] (a : ι → EReal) :
    (∑ j, (if p j then (1 : EReal) else 0) * a j) = ∑ j, if p j then a j else 0 := by
  refine Finset.sum_congr rfl fun j _ => ?_
  by_cases h : p j
  · rw [if_pos h, if_pos h, one_mul]
  · rw [if_neg h, if_neg h, zero_mul]

end Cert.SampledAttn

end
-- ==== Proof.LibKeepdimsColumn.lean ====
/-
  A vector kept as one column, read at an index: an array of shape [a] viewed as [a, 1] holds at (i, u) the entry i of
  the vector (the unit coordinate carries nothing), and an [a, 1] column broadcast to [a, b] holds at (p, c) the
  column's entry p, whatever the column c. These are the two layout steps of a row reduction that keeps its axis
  (a sum over the lanes stored as a column and spread back over the lanes).
-/
import Idealize.ShloMosaic.Lib.ValueIdx
import Idealize.ShloMosaic.Lib.Pipeline.Value

noncomputable section

namespace Cert.Lib.KeepdimsColumn

open Idealize.ShloMosaic Idealize.ShloMosaic.ValueIdx

/-- An `[a]` array cast to `[a, 1]` reads, at `(i, u)`, the operand at `i`, whatever the unit coordinate `u`:
    both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`: the row axis is
    kept (also when `a = 1`, where `p = 0`), the unit column axis is spread. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepdimsColumn

end
-- ==== Proof.KernelMiddle.lean ====
import proofs.«404377_j39393440039235_3_alg».proof.Proof.Gen.KernelIdeal.Skeleton
import proofs.«404377_j39393440039235_3_alg».proof.Proof.Spec
import proofs.«404377_j39393440039235_3_alg».proof.Proof.LibKeepdimsColumn
import Idealize.ShloMosaic.Lib.Pipeline.Value
import Idealize.ShloMosaic.Lib.ValueIdx
import Idealize.ShloMosaic.PureOps.Ideal.Laws

set_option maxRecDepth 16384

noncomputable section

namespace Cert.SampledAttn

open Cert.KernelIdeal Cert.KernelIdeal.Gen
open Idealize.ShloMosaic Idealize.ShloMosaic.TcCoe Idealize.SL.Sem Idealize.ShloMosaic.ValueIdx

/-! The attention stage of the kernel body read at one index. Each reduction is read as a sum or a fold of
    `max` over its axis, each kept-axis layout step as the reduced vector's entry at the kept coordinate,
    each product as the sum over its one contracted axis; the pointwise operations read through. -/

/-! ## The four reductions at an index -/

/-- The index a reduction over axis 1 visits: the kept coordinate with the reduced one put back. -/
theorem pay8_lift_axis1 (h : S2048x64.Reduces [1] S2048) (j : Fin 2048) (d : Fin 64) : h.lift (ix1 j) d = ix2 j d :=
  funext fun a => Fin.ext (by
    match a with
    | ⟨0, _⟩ => rfl
    | ⟨1, _⟩ => rfl)

/-- The index a reduction over axis 0 visits. -/
theorem pay8_lift_axis0 (h : S2048x64.Reduces [0] S64) (d : Fin 64) (j : Fin 2048) : h.lift (ix1 d) j = ix2 j d :=
  funext fun a => Fin.ext (by
    match a with
    | ⟨0, _⟩ => rfl
    | ⟨1, _⟩ => rfl)

theorem pay8_rowFoldMax_apply (x : FVec Ideal S2048x64 .f32) (h : S2048x64.Reduces [1] S2048) (hφ : FKind.Formats .f32)
    (hacc : (0xFF800000#32 : BitVec 32) = FKind.maximumf.neutral .f32 hφ) (j : Fin 2048) :
    multiReduction .maximumf [1] S2048 x 0xFF800000#32 h hφ hacc (ix1 j)
      = (Finset.univ : Finset (Fin 64)).fold max negInf (fun d => x (ix2 j d)) := by
  refine (Ideal.multiReduction_maximumf_single x _ h hφ hacc (ix1 j)).trans ?_
  have e : x ∘ h.lift (ix1 j) = fun d : Fin 64 => x (ix2 j d) := funext fun d => congrArg x (pay8_lift_axis1 h j d)
  exact congrArg (fun f => (Finset.univ : Finset (Fin 64)).fold max negInf f) e

theorem pay8_rowSum_apply (x : FVec Ideal S2048x64 .f32) (h : S2048x64.Reduces [1] S2048) (hφ : FKind.Formats .f32)
    (hacc : (0x00000000#32 : BitVec 32) = FKind.add.neutral .f32 hφ) (j : Fin 2048) :
    multiReduction .add [1] S2048 x 0x00000000#32 h hφ hacc (ix1 j)
      = ∑ d : Fin 64, x (ix2 j d) := by
  refine (Ideal.multiReduction_add_single x _ h hφ hacc (ix1 j)).trans ?_
  exact Finset.sum_congr rfl fun d _ => congrArg x (pay8_lift_axis1 h j d)

theorem pay8_colFoldMax_apply (x : FVec Ideal S2048x64 .f32) (h : S2048x64.Reduces [0] S64) (hφ : FKind.Formats .f32)
    (hacc : (0xFF800000#32 : BitVec 32) = FKind.maximumf.neutral .f32 hφ) (d : Fin 64) :
    multiReduction .maximumf [0] S64 x 0xFF800000#32 h hφ hacc (ix1 d)
      = (Finset.univ : Finset (Fin 2048)).fold max negInf (fun j => x (ix2 j d)) := by
  refine (Ideal.multiReduction_maximumf_single x _ h hφ hacc (ix1 d)).trans ?_
  have e : x ∘ h.lift (ix1 d) = fun j : Fin 2048 => x (ix2 j d) := funext fun j => congrArg x (pay8_lift_axis0 h d j)
  exact congrArg (fun f => (Finset.univ : Finset (Fin 2048)).fold max negInf f) e

theorem pay8_colSum_apply (x : FVec Ideal S2048x64 .f32) (h : S2048x64.Reduces [0] S64) (hφ : FKind.Formats .f32)
    (hacc : (0x00000000#32 : BitVec 32) = FKind.add.neutral .f32 hφ) (d : Fin 64) :
    multiReduction .add [0] S64 x 0x00000000#32 h hφ hacc (ix1 d)
      = ∑ j : Fin 2048, x (ix2 j d) := by
  refine (Ideal.multiReduction_add_single x _ h hφ hacc (ix1 d)).trans ?_
  exact Finset.sum_congr rfl fun j _ => congrArg x (pay8_lift_axis0 h d j)

/-! ## A reduced vector spread back over the reduced axis -/

/-- A [2048] vector kept as a column and spread over the 64 lanes holds, at (j, d), the vector's entry j. -/
theorem pay8_keepCol_apply (y : FVec Ideal S2048 .f32) (hc : S2048.ShapeCasts S2048x1) (hb : S2048x1.Broadcasts S2048x64)
    (j : Fin 2048) (d : Fin 64) :
    broadcastTo S2048x64 (shapeCast S2048x1 y hc) hb (ix2 j d) = y (ix1 j) :=
  (Cert.Lib.KeepdimsColumn.broadcastTo_a1_ab_apply (shapeCast S2048x1 y hc) hb j d).trans
    (Cert.Lib.KeepdimsColumn.shapeCast_a_a1_apply y hc j 0)

/-- A [64] array viewed as [1, 64] holds, at (u, d), the array's entry d: both have row-major position d. -/
theorem pay8_shapeCast_row_apply (y : FVec Ideal S64 .f32) (hc : S64.ShapeCasts S1x64) (u : Fin 1) (d : Fin 64) :
    shapeCast S1x64 y hc (ix2 u d) = y (ix1 d) :=
  shapeCast_apply y hc _ _ (by
    have hu : u.val = 0 := by omega
    rw [Shape.rowMajor_val_two, Shape.rowMajor_val_one]
    show d.val = u.val * 64 + d.val
    rw [hu, Nat.zero_mul, Nat.zero_add])

/-- A [1, 64] row spread over 2048 rows holds, at (j, d), the row's entry d. -/
theorem pay8_broadcastTo_row_apply (w : FVec Ideal S1x64 .f32) (hb : S1x64.Broadcasts S2048x64) (j : Fin 2048) (d : Fin 64) :
    broadcastTo S2048x64 w hb (ix2 j d) = w (ix2 (0 : Fin 1) d) := by
  refine broadcastTo_apply w hb (ix2 j d) (ix2 (0 : Fin 1) d) fun ax => ?_
  match ax with
  | ⟨0, _⟩ => rfl
  | ⟨1, _⟩ => rfl

/-- A [64] vector kept as a row and spread over the 2048 samples holds, at (j, d), the vector's entry d. -/
theorem pay8_keepRow_apply (y : FVec Ideal S64 .f32) (hc : S64.ShapeCasts S1x64) (hb : S1x64.Broadcasts S2048x64)
    (j : Fin 2048) (d : Fin 64) :
    broadcastTo S2048x64 (shapeCast S1x64 y hc) hb (ix2 j d) = y (ix1 d) :=
  (pay8_broadcastTo_row_apply (shapeCast S1x64 y hc) hb j d).trans (pay8_shapeCast_row_apply y hc 0 d)

/-! ## The two products at an index -/

/-! The two products' operand indices, one axis at a time: a contracted axis carries the contraction
    position's one coordinate, a kept axis the result index's coordinate at its place. -/

theorem pay8_lhs_ctx_0 (i : S64x64.Idx) (q : Cert.KernelIdeal.dot_S2048x64_S2048x64_S64x64_0_0_1_1_n_n.contr.Idx) :
    (Cert.KernelIdeal.dot_S2048x64_S2048x64_S64x64_0_0_1_1_n_n.lhsIdx i q 0).val = (q ⟨0, by decide⟩).val :=
  Cert.KernelIdeal.dot_S2048x64_S2048x64_S64x64_0_0_1_1_n_n.lhsIdx_val_of_single rfl i q
theorem pay8_lhs_ctx_1 (i : S64x64.Idx) (q : Cert.KernelIdeal.dot_S2048x64_S2048x64_S64x64_0_0_1_1_n_n.contr.Idx) :
    (Cert.KernelIdeal.dot_S2048x64_S2048x64_S64x64_0_0_1_1_n_n.lhsIdx i q 1).val = (i 0).val := by
  unfold DotDims.lhsIdx
  rw [dif_neg (show ¬(1 : Fin S2048x64.rank) ∈ Cert.KernelIdeal.dot_S2048x64_S2048x64_S64x64_0_0_1_1_n_n.lhsBatch by decide), dif_pos (show (1 : Fin S2048x64.rank) ∈ Cert.KernelIdeal.dot_S2048x64_S2048x64_S64x64_0_0_1_1_n_n.lhsNonContracting by decide)]
  rfl
theorem pay8_rhs_ctx_0 (i : S64x64.Idx) (q : Cert.KernelIdeal.dot_S2048x64_S2048x64_S64x64_0_0_1_1_n_n.contr.Idx) :
    (Cert.KernelIdeal.dot_S2048x64_S2048x64_S64x64_0_0_1_1_n_n.rhsIdx i q 0).val = (q ⟨0, by decide⟩).val :=
  Cert.KernelIdeal.dot_S2048x64_S2048x64_S64x64_0_0_1_1_n_n.rhsIdx_val_of_single rfl i q
theorem pay8_rhs_ctx_1 (i : S64x64.Idx) (q : Cert.KernelIdeal.dot_S2048x64_S2048x64_S64x64_0_0_1_1_n_n.contr.Idx) :
    (Cert.KernelIdeal.dot_S2048x64_S2048x64_S64x64_0_0_1_1_n_n.rhsIdx i q 1).val = (i 1).val := by
  unfold DotDims.rhsIdx
  rw [dif_neg (show ¬(1 : Fin S2048x64.rank) ∈ Cert.KernelIdeal.dot_S2048x64_S2048x64_S64x64_0_0_1_1_n_n.rhsBatch by decide), dif_pos (show (1 : Fin S2048x64.rank) ∈ Cert.KernelIdeal.dot_S2048x64_S2048x64_S64x64_0_0_1_1_n_n.rhsNonContracting by decide)]
  rfl

/-- The 64 x 64 product into a zero accumulator, at (d, e): the sum over the 2048 samples of the left
    operand at (k, d) times the right at (k, e). -/
theorem pay8_mm_ctx_apply (a b : FVec Ideal S2048x64 .bf16) (d e : Fin 64) :
    matmul Cert.KernelIdeal.dot_S2048x64_S2048x64_S64x64_0_0_1_1_n_n none a b (constant S64x64 .f32 0x00000000#32) (ix2 d e)
      = ∑ k : Fin 2048, a (ix2 k d) * b (ix2 k e) := by
  refine (Ideal.matmul_constant_zero_apply Cert.KernelIdeal.dot_S2048x64_S2048x64_S64x64_0_0_1_1_n_n none a b (ix2 d e)).trans ?_
  rw [← Equiv.sum_comp (ValueIdx.contrEquiv1 Cert.KernelIdeal.dot_S2048x64_S2048x64_S64x64_0_0_1_1_n_n 2048 rfl rfl).symm]
  refine Finset.sum_congr rfl fun k _ => ?_
  have hk := ValueIdx.contrEquiv1_symm_val Cert.KernelIdeal.dot_S2048x64_S2048x64_S64x64_0_0_1_1_n_n 2048 rfl rfl k
  have el : Cert.KernelIdeal.dot_S2048x64_S2048x64_S64x64_0_0_1_1_n_n.lhsIdx (ix2 d e) ((ValueIdx.contrEquiv1 Cert.KernelIdeal.dot_S2048x64_S2048x64_S64x64_0_0_1_1_n_n 2048 rfl rfl).symm k) = ix2 k d := funext fun ax => Fin.ext (by
    match ax with
    | ⟨0, _⟩ => exact (pay8_lhs_ctx_0 _ _).trans hk
    | ⟨1, _⟩ => exact pay8_lhs_ctx_1 _ _)
  have er : Cert.KernelIdeal.dot_S2048x64_S2048x64_S64x64_0_0_1_1_n_n.rhsIdx (ix2 d e) ((ValueIdx.contrEquiv1 Cert.KernelIdeal.dot_S2048x64_S2048x64_S64x64_0_0_1_1_n_n 2048 rfl rfl).symm k) = ix2 k e := funext fun ax => Fin.ext (by
    match ax with
    | ⟨0, _⟩ => exact (pay8_rhs_ctx_0 _ _).trans hk
    | ⟨1, _⟩ => exact pay8_rhs_ctx_1 _ _)
  rw [el, er]

theorem pay8_lhs_attn_0 (i : S2048x64.Idx) (q : Cert.KernelIdeal.dot_S2048x64_S64x64_S2048x64_1_0_0_1_n_n.contr.Idx) :
    (Cert.KernelIdeal.dot_S2048x64_S64x64_S2048x64_1_0_0_1_n_n.lhsIdx i q 0).val = (i 0).val := by
  unfold DotDims.lhsIdx
  rw [dif_neg (show ¬(0 : Fin S2048x64.rank) ∈ Cert.KernelIdeal.dot_S2048x64_S64x64_S2048x64_1_0_0_1_n_n.lhsBatch by decide), dif_pos (show (0 : Fin S2048x64.rank) ∈ Cert.KernelIdeal.dot_S2048x64_S64x64_S2048x64_1_0_0_1_n_n.lhsNonContracting by decide)]
  rfl
theorem pay8_lhs_attn_1 (i : S2048x64.Idx) (q : Cert.KernelIdeal.dot_S2048x64_S64x64_S2048x64_1_0_0_1_n_n.contr.Idx) :
    (Cert.KernelIdeal.dot_S2048x64_S64x64_S2048x64_1_0_0_1_n_n.lhsIdx i q 1).val = (q ⟨0, by decide⟩).val :=
  Cert.KernelIdeal.dot_S2048x64_S64x64_S2048x64_1_0_0_1_n_n.lhsIdx_val_of_single rfl i q
theorem pay8_rhs_attn_0 (i : S2048x64.Idx) (q : Cert.KernelIdeal.dot_S2048x64_S64x64_S2048x64_1_0_0_1_n_n.contr.Idx) :
    (Cert.KernelIdeal.dot_S2048x64_S64x64_S2048x64_1_0_0_1_n_n.rhsIdx i q 0).val = (q ⟨0, by decide⟩).val :=
  Cert.KernelIdeal.dot_S2048x64_S64x64_S2048x64_1_0_0_1_n_n.rhsIdx_val_of_single rfl i q
theorem pay8_rhs_attn_1 (i : S2048x64.Idx) (q : Cert.KernelIdeal.dot_S2048x64_S64x64_S2048x64_1_0_0_1_n_n.contr.Idx) :
    (Cert.KernelIdeal.dot_S2048x64_S64x64_S2048x64_1_0_0_1_n_n.rhsIdx i q 1).val = (i 1).val := by
  unfold DotDims.rhsIdx
  rw [dif_neg (show ¬(1 : Fin S64x64.rank) ∈ Cert.KernelIdeal.dot_S2048x64_S64x64_S2048x64_1_0_0_1_n_n.rhsBatch by decide), dif_pos (show (1 : Fin S64x64.rank) ∈ Cert.KernelIdeal.dot_S2048x64_S64x64_S2048x64_1_0_0_1_n_n.rhsNonContracting by decide)]
  rfl

/-- The final product into a zero accumulator, at (j, e): the sum over the 64 features of the left operand
    at (j, d) times the right at (d, e). -/
theorem pay8_mm_attn_apply (a : FVec Ideal S2048x64 .bf16) (b : FVec Ideal S64x64 .bf16) (j : Fin 2048) (e : Fin 64) :
    matmul Cert.KernelIdeal.dot_S2048x64_S64x64_S2048x64_1_0_0_1_n_n none a b (constant S2048x64 .f32 0x00000000#32) (ix2 j e)
      = ∑ d : Fin 64, a (ix2 j d) * b (ix2 d e) := by
  refine (Ideal.matmul_constant_zero_apply Cert.KernelIdeal.dot_S2048x64_S64x64_S2048x64_1_0_0_1_n_n none a b (ix2 j e)).trans ?_
  rw [← Equiv.sum_comp (ValueIdx.contrEquiv1 Cert.KernelIdeal.dot_S2048x64_S64x64_S2048x64_1_0_0_1_n_n 64 rfl rfl).symm]
  refine Finset.sum_congr rfl fun k _ => ?_
  have hk := ValueIdx.contrEquiv1_symm_val Cert.KernelIdeal.dot_S2048x64_S64x64_S2048x64_1_0_0_1_n_n 64 rfl rfl k
  have el : Cert.KernelIdeal.dot_S2048x64_S64x64_S2048x64_1_0_0_1_n_n.lhsIdx (ix2 j e) ((ValueIdx.contrEquiv1 Cert.KernelIdeal.dot_S2048x64_S64x64_S2048x64_1_0_0_1_n_n 64 rfl rfl).symm k) = ix2 j k := funext fun ax => Fin.ext (by
    match ax with
    | ⟨0, _⟩ => exact pay8_lhs_attn_0 _ _
    | ⟨1, _⟩ => exact (pay8_lhs_attn_1 _ _).trans hk)
  have er : Cert.KernelIdeal.dot_S2048x64_S64x64_S2048x64_1_0_0_1_n_n.rhsIdx (ix2 j e) ((ValueIdx.contrEquiv1 Cert.KernelIdeal.dot_S2048x64_S64x64_S2048x64_1_0_0_1_n_n 64 rfl rfl).symm k) = ix2 k e := funext fun ax => Fin.ext (by
    match ax with
    | ⟨0, _⟩ => exact (pay8_rhs_attn_0 _ _).trans hk
    | ⟨1, _⟩ => exact pay8_rhs_attn_1 _ _)
  rw [el, er]

/-! The attention stage's intermediate arrays, named: the first softmax (over the 64 features of each row),
    then the second (down each feature column, over the 2048 samples). -/

/-- Each row's maximum, folded from -∞ and joined with -∞ once more. -/
def pay8_rMax (x : FVec Ideal S2048x64 .f32) : FVec Ideal S2048 .f32 :=
  maximumf (broadcast S2048 (Scalar.ofBits .f32 0xFF800000#32))
    (multiReduction .maximumf [1] S2048 x 0xFF800000#32 reduces_S2048x64_S2048 (.inl rfl) rfl)
/-- The exponentials of the entries less their row's maximum. -/
def pay8_rExp (x : FVec Ideal S2048x64 .f32) : FVec Ideal S2048x64 .f32 :=
  exp (subf x (broadcastTo S2048x64 (shapeCast S2048x1 (pay8_rMax x) shapeCasts_S2048_S2048x1) broadcasts_S2048x1_S2048x64))
/-- Their sums along the rows. -/
def pay8_rSum (x : FVec Ideal S2048x64 .f32) : FVec Ideal S2048 .f32 :=
  multiReduction .add [1] S2048 (pay8_rExp x) 0x00000000#32 reduces_S2048x64_S2048 (.inl rfl) rfl
/-- The softmax over the features. -/
def pay8_rSm (x : FVec Ideal S2048x64 .f32) : FVec Ideal S2048x64 .f32 :=
  divf (pay8_rExp x) (broadcastTo S2048x64 (shapeCast S2048x1 (pay8_rSum x) shapeCasts_S2048_S2048x1) broadcasts_S2048x1_S2048x64)
/-- Each column's maximum, folded from -∞ and joined with -∞ once more. -/
def pay8_cMax (y : FVec Ideal S2048x64 .f32) : FVec Ideal S64 .f32 :=
  maximumf (broadcast S64 (Scalar.ofBits .f32 0xFF800000#32))
    (multiReduction .maximumf [0] S64 y 0xFF800000#32 reduces_S2048x64_S64 (.inl rfl) rfl)
/-- The exponentials of the entries less their column's maximum. -/
def pay8_cExp (y : FVec Ideal S2048x64 .f32) : FVec Ideal S2048x64 .f32 :=
  exp (subf y (broadcastTo S2048x64 (shapeCast S1x64 (pay8_cMax y) shapeCasts_S64_S1x64) broadcasts_S1x64_S2048x64))
/-- Their sums down the columns. -/
def pay8_cSum (y : FVec Ideal S2048x64 .f32) : FVec Ideal S64 .f32 :=
  multiReduction .add [0] S64 (pay8_cExp y) 0x00000000#32 reduces_S2048x64_S64 (.inl rfl) rfl
/-- The softmax over the samples. -/
def pay8_cSm (y : FVec Ideal S2048x64 .f32) : FVec Ideal S2048x64 .f32 :=
  divf (pay8_cExp y) (broadcastTo S2048x64 (shapeCast S1x64 (pay8_cSum y) shapeCasts_S64_S1x64) broadcasts_S1x64_S2048x64)

/-- The stage is the scale by 4 of the product of the first softmax with the 64 x 64 product of the second
    softmax, transposed, with the values: its bindings substituted. -/
theorem pay8_eq (qs vs : FVec Ideal S2048x64 .f32) :
    k0_pay8 (F := Ideal) qs vs
      = mulf (broadcast S2048x64 (Scalar.ofBits .f32 0x40800000#32))
          (matmul Cert.KernelIdeal.dot_S2048x64_S64x64_S2048x64_1_0_0_1_n_n none
            (truncf .bf16 (pay8_rSm qs) bitsLt_bf16_f32)
            (truncf .bf16
              (matmul Cert.KernelIdeal.dot_S2048x64_S2048x64_S64x64_0_0_1_1_n_n none
                (truncf .bf16 (pay8_cSm (pay8_rSm qs)) bitsLt_bf16_f32) (truncf .bf16 vs bitsLt_bf16_f32)
                (constant S64x64 .f32 0x00000000#32)) bitsLt_bf16_f32)
            (constant S2048x64 .f32 0x00000000#32)) := rfl

section Stage

variable (x : FVec Ideal S2048x64 .f32)

/-- The first softmax's maximum at row j is `rowMax` of the array's entries. -/
theorem pay8_rMax_apply (j : Fin 2048) : pay8_rMax x (ix1 j) = rowMax (fun j d => x (ix2 j d)) j := by
  unfold pay8_rMax rowMax
  show max negInf (multiReduction .maximumf [1] S2048 x 0xFF800000#32 reduces_S2048x64_S2048 (.inl rfl) rfl (ix1 j)) = _
  exact congrArg (max negInf) (pay8_rowFoldMax_apply x _ _ _ j)

/-- The shifted exponential at (j, d): the row's maximum, kept as a column, is read back at row j. -/
theorem pay8_rExp_apply (j : Fin 2048) (d : Fin 64) : pay8_rExp x (ix2 j d) = rowExp (fun j d => x (ix2 j d)) j d := by
  unfold pay8_rExp rowExp
  show Ideal.exp (x (ix2 j d) - broadcastTo S2048x64 (shapeCast S2048x1 (pay8_rMax x) shapeCasts_S2048_S2048x1) broadcasts_S2048x1_S2048x64 (ix2 j d)) = _
  rw [pay8_keepCol_apply, pay8_rMax_apply]

/-- The row sums of the exponentials. -/
theorem pay8_rSum_apply (j : Fin 2048) : pay8_rSum x (ix1 j) = rowSum (fun j d => x (ix2 j d)) j := by
  unfold pay8_rSum rowSum
  refine (pay8_rowSum_apply _ _ _ _ j).trans ?_
  exact Finset.sum_congr rfl fun d _ => pay8_rExp_apply x j d

/-- The first softmax at (j, d): the row's sum, kept as a column, is read back at row j. -/
theorem pay8_rSm_apply (j : Fin 2048) (d : Fin 64) : pay8_rSm x (ix2 j d) = rowSm (fun j d => x (ix2 j d)) j d := by
  unfold pay8_rSm rowSm
  show Ideal.div (pay8_rExp x (ix2 j d)) (broadcastTo S2048x64 (shapeCast S2048x1 (pay8_rSum x) shapeCasts_S2048_S2048x1) broadcasts_S2048x1_S2048x64 (ix2 j d)) = _
  rw [pay8_keepCol_apply, pay8_rExp_apply, pay8_rSum_apply]

end Stage

section Stage2

variable (q : Fin 2048 → Fin 64 → EReal) (y : FVec Ideal S2048x64 .f32) (hy : ∀ j d, y (ix2 j d) = rowSm q j d)
include hy

/-- The second softmax's maximum at column d is `colMax`. -/
theorem pay8_cMax_apply (d : Fin 64) : pay8_cMax y (ix1 d) = colMax q d := by
  unfold pay8_cMax colMax
  show max negInf (multiReduction .maximumf [0] S64 y 0xFF800000#32 reduces_S2048x64_S64 (.inl rfl) rfl (ix1 d)) = _
  refine congrArg (max negInf) ((pay8_colFoldMax_apply y _ _ _ d).trans ?_)
  exact congrArg (fun f => (Finset.univ : Finset (Fin 2048)).fold max negInf f) (funext fun j => hy j d)

/-- The shifted exponential at (j, d): the column's maximum, kept as a row, is read back at column d. -/
theorem pay8_cExp_apply (j : Fin 2048) (d : Fin 64) : pay8_cExp y (ix2 j d) = colExp q j d := by
  unfold pay8_cExp colExp
  show Ideal.exp (y (ix2 j d) - broadcastTo S2048x64 (shapeCast S1x64 (pay8_cMax y) shapeCasts_S64_S1x64) broadcasts_S1x64_S2048x64 (ix2 j d)) = _
  rw [pay8_keepRow_apply, pay8_cMax_apply q y hy, hy]

/-- The column sums of the exponentials. -/
theorem pay8_cSum_apply (d : Fin 64) : pay8_cSum y (ix1 d) = colSum q d := by
  unfold pay8_cSum colSum
  refine (pay8_colSum_apply _ _ _ _ d).trans ?_
  exact Finset.sum_congr rfl fun j _ => pay8_cExp_apply q y hy j d

/-- The second softmax at (j, d): the column's sum, kept as a row, is read back at column d. -/
theorem pay8_cSm_apply (j : Fin 2048) (d : Fin 64) : pay8_cSm y (ix2 j d) = colSm q j d := by
  unfold pay8_cSm colSm
  show Ideal.div (pay8_cExp y (ix2 j d)) (broadcastTo S2048x64 (shapeCast S1x64 (pay8_cSum y) shapeCasts_S64_S1x64) broadcasts_S1x64_S2048x64 (ix2 j d)) = _
  rw [pay8_keepRow_apply, pay8_cExp_apply q y hy, pay8_cSum_apply q y hy]

end Stage2

/-- The body's attention stage read at (j, e): four times `attn` of the two accumulators. -/
theorem pay8_apply (qs vs : FVec Ideal S2048x64 .f32) (j : Fin 2048) (e : Fin 64) :
    k0_pay8 (F := Ideal) qs vs (ix2 j e)
      = four * attn (fun j d => qs (ix2 j d)) (fun j d => vs (ix2 j d)) j e := by
  rw [pay8_eq]
  -- the scale by the word of 4 is a product at each index
  show four * _ = _
  refine congrArg (four * ·) ?_
  -- the final product: over the 64 features, the first softmax at (j, d) times the context at (d, e)
  refine (pay8_mm_attn_apply _ _ j e).trans ?_
  unfold attn
  refine Finset.sum_congr rfl fun d _ => ?_
  show pay8_rSm qs (ix2 j d) * _ = _
  rw [pay8_rSm_apply]
  refine congrArg (rowSm (fun j d => qs (ix2 j d)) j d * ·) ?_
  -- the context: over the 2048 samples, the second softmax at (k, d) times the value at (k, e)
  refine (pay8_mm_ctx_apply _ _ d e).trans ?_
  unfold ctx
  refine Finset.sum_congr rfl fun k _ => ?_
  show pay8_cSm (pay8_rSm qs) (ix2 k d) * vs (ix2 k e) = _
  rw [pay8_cSm_apply (fun j d => qs (ix2 j d)) (pay8_rSm qs) (fun j d => pay8_rSm_apply qs j d)]

end Cert.SampledAttn

end
-- ==== Proof.KernelOneHot.lean ====
import proofs.«404377_j39393440039235_3_alg».proof.Proof.Gen.KernelIdeal.Skeleton
import proofs.«404377_j39393440039235_3_alg».proof.Proof.Spec
import Idealize.ShloMosaic.Lib.Pipeline.Value
import Idealize.ShloMosaic.Lib.ValueLayout
import Idealize.ShloMosaic.Lib.StableHlo.Predicate

set_option maxRecDepth 16384

noncomputable section

namespace Cert.SampledAttn

open Cert.KernelIdeal Cert.KernelIdeal.Gen
open Idealize.ShloMosaic Idealize.ShloMosaic.TcCoe Idealize.SL.Sem Idealize.ShloMosaic.ValueIdx

namespace OneHot

/-- The word of trip k's first row, 512·k: the product does not wrap for k below 8. -/
theorem base_word (k : ℕ) (hk : k < 8) :
    Scalar.muli (Scf.iv 0#32 1#32 k) 512#32 = BitVec.ofNat 32 (512 * k) := by
  apply BitVec.eq_of_toNat_eq
  simp only [Scalar.muli, IntOp.muli, Scf.iv, BitVec.toNat_mul, BitVec.toNat_add, BitVec.toNat_ofNat]
  omega

/-- Row r of trip k against a sampled row number below 4096, as 32-bit words and as numbers. -/
theorem word_eq_iff (r : Fin 512) (k : ℕ) (hk : k < 8) (s : Fin 4096) :
    BitVec.ofNat 32 r.val + BitVec.ofNat 32 (512 * k) = BitVec.ofNat 32 s.val ↔ s.val = 512 * k + r.val := by
  have hr := r.isLt
  have hs := s.isLt
  constructor
  · intro h
    have := congrArg BitVec.toNat h
    simp only [BitVec.toNat_add, BitVec.toNat_ofNat] at this
    omega
  · intro h
    apply BitVec.eq_of_toNat_eq
    simp only [BitVec.toNat_add, BitVec.toNat_ofNat]
    omega

/-- The one-bit word widened to 32 bits and read as a signed number: the word 1 is the number 1. -/
theorem sitofp_setWidth_one : (FloatOps.sitofp (F := Ideal) .f32 ((1#1 : BitVec 1).setWidth 32) : EReal) = 1 := by
  show (((((1#1 : BitVec 1).setWidth 32).toInt : ℤ) : ℝ) : EReal) = 1
  have : ((1#1 : BitVec 1).setWidth 32).toInt = 1 := by decide
  rw [this]; norm_num

/-- … and the word 0 is the number 0. -/
theorem sitofp_setWidth_zero : (FloatOps.sitofp (F := Ideal) .f32 ((0#1 : BitVec 1).setWidth 32) : EReal) = 0 := by
  show (((((0#1 : BitVec 1).setWidth 32).toInt : ℤ) : ℝ) : EReal) = 0
  have : ((0#1 : BitVec 1).setWidth 32).toInt = 0 := by decide
  rw [this]; norm_num

/-- Entry (r, j) of a trip's one-hot matrix: 1 when sample j names row r of the trip's chunk, else 0. -/
theorem oneHot_apply (a : IVec S512x2048 32) (w : IVec S1x2048 32) (k : ℕ) (hk : k < 8) (rq : Fin 2048 → Fin 4096)
    (ha : ∀ (r : Fin 512) (j : Fin 2048), a (ix2 r j) = BitVec.ofNat 32 r.val + BitVec.ofNat 32 (512 * k))
    (hw : ∀ j : Fin 2048, w (ix2 (0 : Fin 1) j) = BitVec.ofNat 32 (rq j).val) (r : Fin 512) (j : Fin 2048) :
    (truncf .bf16 (sitofp .f32 (extui 32 (cmpi .eq a (broadcastTo S512x2048 w broadcasts_S1x2048_S512x2048)) natLt_1_32) : FVec Ideal S512x2048 .f32) bitsLt_bf16_f32) (ix2 r j)
      = if (rq j).val = 512 * k + r.val then (1 : EReal) else 0 := by
  rw [truncf_apply, sitofp_apply, extui_apply]
  have hb : broadcastTo S512x2048 w broadcasts_S1x2048_S512x2048 (ix2 r j) = BitVec.ofNat 32 (rq j).val :=
    (broadcastTo_1b_ab_apply w broadcasts_S1x2048_S512x2048 r j).trans (hw j)
  show FloatOps.sitofp (F := Ideal) .f32 ((IntOp.cmpi .eq (a (ix2 r j)) (broadcastTo S512x2048 w broadcasts_S1x2048_S512x2048 (ix2 r j))).setWidth 32) = _
  rw [hb, ha r j]
  by_cases h : (rq j).val = 512 * k + r.val
  · rw [if_pos h, StableHlo.Predicate.cmpi_eq_iff.2 ((word_eq_iff r k hk (rq j)).2 h)]
    exact sitofp_setWidth_one
  · rw [if_neg h, eq_zero_of_ne_one (fun e => h ((word_eq_iff r k hk (rq j)).1 (StableHlo.Predicate.cmpi_eq_iff.1 e)))]
    exact sitofp_setWidth_zero

/-- The gather loop runs at most 8 trips. -/
theorem trip1_lt (k : Fin k0_t1_loop.trips) : k.val < 8 := lt_of_lt_of_le k.isLt k0_t1_abs.2.1
/-- The scatter loop runs at most 8 trips. -/
theorem trip2_lt (k : Fin k0_t2_loop.trips) : k.val < 8 := lt_of_lt_of_le k.isLt k0_t2_abs.2.1

/-- The row numbers of a trip's chunk at (r, j): the row counter plus the splat of 512·k. -/
theorem rows_apply (k : ℕ) (hk : k < 8) (h : S512x2048.Iotas .tc 32 [0]) (r : Fin 512) (j : Fin 2048) :
    addi (iota .tc S512x2048 32 [0] h) (broadcast S512x2048 (Scalar.muli (Scf.iv 0#32 1#32 k) 512#32)) (ix2 r j)
      = BitVec.ofNat 32 r.val + BitVec.ofNat 32 (512 * k) := by
  show IntOp.addi (iota .tc S512x2048 32 [0] h (ix2 r j)) (Scalar.muli (Scf.iv 0#32 1#32 k) 512#32) = _
  rw [iota_single_apply, base_word k hk]
  rfl

/-- The same for the gather loop's own payload. -/
theorem pay5_apply (k : Fin k0_t1_loop.trips) (r : Fin 512) (j : Fin 2048) :
    k0_pay5 k (ix2 r j) = BitVec.ofNat 32 r.val + BitVec.ofNat 32 (512 * k.val) := by
  unfold k0_pay5
  exact rows_apply k.val (trip1_lt k) _ r j

/-! The gather product contracts the chunk's row axis (axis 0 of both operands); the left operand's other
    axis is the output's sample axis, the right operand's other axis the output's feature axis. -/

theorem gather_lhs_0 (i : S2048x64.Idx) (q : dot_S512x2048_S512x64_S2048x64_0_0_1_1_n_n.contr.Idx) :
    (dot_S512x2048_S512x64_S2048x64_0_0_1_1_n_n.lhsIdx i q 0).val = (q ⟨0, by decide⟩).val :=
  dot_S512x2048_S512x64_S2048x64_0_0_1_1_n_n.lhsIdx_val_of_single rfl i q
theorem gather_lhs_1 (i : S2048x64.Idx) (q : dot_S512x2048_S512x64_S2048x64_0_0_1_1_n_n.contr.Idx) :
    (dot_S512x2048_S512x64_S2048x64_0_0_1_1_n_n.lhsIdx i q 1).val = (i 0).val := by
  unfold DotDims.lhsIdx
  rw [dif_neg (show ¬(1 : Fin S512x2048.rank) ∈ dot_S512x2048_S512x64_S2048x64_0_0_1_1_n_n.lhsBatch by decide),
    dif_pos (show (1 : Fin S512x2048.rank) ∈ dot_S512x2048_S512x64_S2048x64_0_0_1_1_n_n.lhsNonContracting by decide)]
  rfl
theorem gather_rhs_0 (i : S2048x64.Idx) (q : dot_S512x2048_S512x64_S2048x64_0_0_1_1_n_n.contr.Idx) :
    (dot_S512x2048_S512x64_S2048x64_0_0_1_1_n_n.rhsIdx i q 0).val = (q ⟨0, by decide⟩).val :=
  dot_S512x2048_S512x64_S2048x64_0_0_1_1_n_n.rhsIdx_val_of_single rfl i q
theorem gather_rhs_1 (i : S2048x64.Idx) (q : dot_S512x2048_S512x64_S2048x64_0_0_1_1_n_n.contr.Idx) :
    (dot_S512x2048_S512x64_S2048x64_0_0_1_1_n_n.rhsIdx i q 1).val = (i 1).val := by
  unfold DotDims.rhsIdx
  rw [dif_neg (show ¬(1 : Fin S512x64.rank) ∈ dot_S512x2048_S512x64_S2048x64_0_0_1_1_n_n.rhsBatch by decide),
    dif_pos (show (1 : Fin S512x64.rank) ∈ dot_S512x2048_S512x64_S2048x64_0_0_1_1_n_n.rhsNonContracting by decide)]
  rfl

/-- At output (j, d) and chunk row r the left operand is read at (r, j) … -/
theorem gather_lhsIdx (j : Fin 2048) (d : Fin 64) (r : Fin 512) :
    dot_S512x2048_S512x64_S2048x64_0_0_1_1_n_n.lhsIdx (ix2 j d)
      ((contrEquiv1 dot_S512x2048_S512x64_S2048x64_0_0_1_1_n_n 512 rfl rfl).symm r) = ix2 r j := by
  have hr := contrEquiv1_symm_val dot_S512x2048_S512x64_S2048x64_0_0_1_1_n_n 512 rfl rfl r
  exact funext fun a => Fin.ext (by
    match a with
    | ⟨0, _⟩ => exact (gather_lhs_0 _ _).trans hr
    | ⟨1, _⟩ => exact gather_lhs_1 _ _)

/-- … and the right operand at (r, d). -/
theorem gather_rhsIdx (j : Fin 2048) (d : Fin 64) (r : Fin 512) :
    dot_S512x2048_S512x64_S2048x64_0_0_1_1_n_n.rhsIdx (ix2 j d)
      ((contrEquiv1 dot_S512x2048_S512x64_S2048x64_0_0_1_1_n_n 512 rfl rfl).symm r) = ix2 r d := by
  have hr := contrEquiv1_symm_val dot_S512x2048_S512x64_S2048x64_0_0_1_1_n_n 512 rfl rfl r
  exact funext fun a => Fin.ext (by
    match a with
    | ⟨0, _⟩ => exact (gather_rhs_0 _ _).trans hr
    | ⟨1, _⟩ => exact gather_rhs_1 _ _)

/-- The chunk with its leading unit axis dropped, read at (r, d). -/
theorem chunk_apply (blk : Vec Ideal S1x512x64 .f32) (r : Fin 512) (d : Fin 64) :
    (shapeCast S512x64 blk shapeCasts_S1x512x64_S512x64 : FVec Ideal S512x64 .f32) (ix2 r d) = blk (ix3 (0 : Fin 1) r d) := by
  refine shapeCast_apply blk _ (ix2 r d) (ix3 (0 : Fin 1) r d) ?_
  rw [Shape.rowMajor_val_two, Shape.rowMajor_val_three]
  show (0 * 512 + r.val) * 64 + d.val = r.val * 64 + d.val
  omega

/-- One trip of a gather at (j, d): the accumulator plus the one-hot matrix transposed times the chunk, which
    is the sum of the chunk's rows that sample j names. -/
theorem gather_apply (w : IVec S1x2048 32) (k : Fin k0_t1_loop.trips) (acc : FVec Ideal S2048x64 .f32)
    (blk : Vec Ideal S1x512x64 .f32) (rq : Fin 2048 → Fin 4096)
    (hw : ∀ j : Fin 2048, w (ix2 (0 : Fin 1) j) = BitVec.ofNat 32 (rq j).val) (j : Fin 2048) (d : Fin 64) :
    addf acc (matmul dot_S512x2048_S512x64_S2048x64_0_0_1_1_n_n none
        (truncf .bf16 (sitofp .f32 (extui 32 (cmpi .eq (k0_pay5 k) (broadcastTo S512x2048 w broadcasts_S1x2048_S512x2048)) natLt_1_32) : FVec Ideal S512x2048 .f32) bitsLt_bf16_f32)
        (truncf .bf16 (shapeCast S512x64 blk shapeCasts_S1x512x64_S512x64 : FVec Ideal S512x64 .f32) bitsLt_bf16_f32)
        (constant S2048x64 .f32 0x00000000#32)) (ix2 j d)
      = acc (ix2 j d) + ∑ r : Fin 512, if (rq j).val = 512 * k.val + r.val then blk (ix3 (0 : Fin 1) r d) else 0 := by
  rw [addf_apply]
  refine congrArg (acc (ix2 j d) + ·) ?_
  simp only [matmul]
  rw [Ideal.matmul_constant_zero_apply,
    ← Equiv.sum_comp (contrEquiv1 dot_S512x2048_S512x64_S2048x64_0_0_1_1_n_n 512 rfl rfl).symm,
    ← sum_select_mul]
  refine Finset.sum_congr rfl fun r _ => ?_
  rw [gather_lhsIdx, gather_rhsIdx, oneHot_apply _ _ k.val (trip1_lt k) rq (pay5_apply k) hw r j, truncf_apply,
    chunk_apply]

/-! The scatter product contracts the sample axis (axis 1 of the one-hot matrix, axis 0 of the update rows); the
    one-hot matrix's row axis is the output's row axis, the update rows' feature axis the output's feature axis. -/

theorem scatter_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem scatter_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem scatter_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem scatter_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- At output (r, e) and sample j the one-hot matrix is read at (r, j) … -/
theorem scatter_lhsIdx (r : Fin 512) (e : Fin 64) (j : Fin 2048) :
    dot_S512x2048_S2048x64_S512x64_1_0_0_1_n_n.lhsIdx (ix2 r e)
      ((contrEquiv1 dot_S512x2048_S2048x64_S512x64_1_0_0_1_n_n 2048 rfl rfl).symm j) = ix2 r j := by
  have hj := contrEquiv1_symm_val dot_S512x2048_S2048x64_S512x64_1_0_0_1_n_n 2048 rfl rfl j
  exact funext fun a => Fin.ext (by
    match a with
    | ⟨0, _⟩ => exact scatter_lhs_0 _ _
    | ⟨1, _⟩ => exact (scatter_lhs_1 _ _).trans hj)

/-- … and the update rows at (j, e). -/
theorem scatter_rhsIdx (r : Fin 512) (e : Fin 64) (j : Fin 2048) :
    dot_S512x2048_S2048x64_S512x64_1_0_0_1_n_n.rhsIdx (ix2 r e)
      ((contrEquiv1 dot_S512x2048_S2048x64_S512x64_1_0_0_1_n_n 2048 rfl rfl).symm j) = ix2 j e := by
  have hj := contrEquiv1_symm_val dot_S512x2048_S2048x64_S512x64_1_0_0_1_n_n 2048 rfl rfl j
  exact funext fun a => Fin.ext (by
    match a with
    | ⟨0, _⟩ => exact (scatter_rhs_0 _ _).trans hj
    | ⟨1, _⟩ => exact scatter_rhs_1 _ _)

/-- The scattered rows with a leading unit axis put back, read at (0, r, e). -/
theorem unchunk_apply (x : FVec Ideal S512x64 .f32) (r : Fin 512) (e : Fin 64) :
    (shapeCast S1x512x64 x shapeCasts_S512x64_S1x512x64 : FVec Ideal S1x512x64 .f32) (ix3 (0 : Fin 1) r e) = x (ix2 r e) := by
  refine shapeCast_apply x _ (ix3 (0 : Fin 1) r e) (ix2 r e) ?_
  rw [Shape.rowMajor_val_two, Shape.rowMajor_val_three]
  show r.val * 64 + e.val = (0 * 512 + r.val) * 64 + e.val
  omega

end OneHot

open OneHot

/-- One trip of the gather loop, query side, read at (j, d): the accumulator plus the rows of this trip's
    512-row chunk that sample `j` names. -/
theorem pay6_apply (v0 : Vec Ideal S1x2048 .i32) (k : Fin k0_t1_loop.trips) (acc : FVec Ideal S2048x64 .f32)
    (blk : Vec Ideal S1x512x64 .f32) (rq : Fin 2048 → Fin 4096)
    (hq : ∀ j : Fin 2048, v0 (ix2 (0 : Fin 1) j) = BitVec.ofNat 32 (rq j).val) (j : Fin 2048) (d : Fin 64) :
    k0_pay6 (F := Ideal) v0 k acc blk (ix2 j d)
      = acc (ix2 j d) + ∑ r : Fin 512, if (rq j).val = 512 * k.val + r.val then blk (ix3 (0 : Fin 1) r d) else 0 := by
  -- the index row reaches the comparison through two reshapes to its own shape
  have hw : ∀ j : Fin 2048, (shapeCast S1x2048 (k0_pay2 v0) shapeCasts_S1x2048_S1x2048 : IVec S1x2048 32) (ix2 (0 : Fin 1) j)
      = BitVec.ofNat 32 (rq j).val := fun j => by
    rw [shapeCast_self]
    unfold k0_pay2
    rw [shapeCast_self]
    exact hq j
  unfold k0_pay6
  exact gather_apply _ k acc blk rq hw j d

/-- The same for the value side. -/
theorem pay7_apply (v2 : Vec Ideal S1x2048 .i32) (k : Fin k0_t1_loop.trips) (acc : FVec Ideal S2048x64 .f32)
    (blk : Vec Ideal S1x512x64 .f32) (rk : Fin 2048 → Fin 4096)
    (hk : ∀ j : Fin 2048, v2 (ix2 (0 : Fin 1) j) = BitVec.ofNat 32 (rk j).val) (j : Fin 2048) (d : Fin 64) :
    k0_pay7 (F := Ideal) v2 k acc blk (ix2 j d)
      = acc (ix2 j d) + ∑ r : Fin 512, if (rk j).val = 512 * k.val + r.val then blk (ix3 (0 : Fin 1) r d) else 0 := by
  have hw : ∀ j : Fin 2048, (shapeCast S1x2048 (shapeCast S1x2048 v2 shapeCasts_S1x2048_S1x2048 : IVec S1x2048 32)
      shapeCasts_S1x2048_S1x2048 : IVec S1x2048 32) (ix2 (0 : Fin 1) j) = BitVec.ofNat 32 (rk j).val := fun j => by
    rw [shapeCast_self, shapeCast_self]
    exact hk j
  unfold k0_pay7
  exact gather_apply _ k acc blk rk hw j d

/-- One trip of the scatter loop read at (0, r, e): the update rows whose sampled query row is row `r` of
    this trip's chunk, summed. -/
theorem pay1_apply (v0 : Vec Ideal S1x2048 .i32) (vs av : FVec Ideal S2048x64 .f32) (k : Fin k0_t2_loop.trips)
    (rq : Fin 2048 → Fin 4096) (hq : ∀ j : Fin 2048, v0 (ix2 (0 : Fin 1) j) = BitVec.ofNat 32 (rq j).val)
    (r : Fin 512) (e : Fin 64) :
    k0_pay1 (F := Ideal) (k0_pay2 v0) (iota .tc S512x2048 32 [0] Facts₀.iota_S512x2048_d0_w32) vs av
        (Scalar.ofBits .f32 0x40000000#32) k (ix3 (0 : Fin 1) r e)
      = ∑ j : Fin 2048, if (rq j).val = 512 * k.val + r.val then av (ix2 j e) + two * vs (ix2 j e) else 0 := by
  -- the index row reaches the comparison through two reshapes to its own shape
  have hw : ∀ j : Fin 2048, (shapeCast S1x2048 (k0_pay2 v0) shapeCasts_S1x2048_S1x2048 : IVec S1x2048 32) (ix2 (0 : Fin 1) j)
      = BitVec.ofNat 32 (rq j).val := fun j => by
    rw [shapeCast_self]
    unfold k0_pay2
    rw [shapeCast_self]
    exact hq j
  unfold k0_pay1
  refine (unchunk_apply _ r e).trans ?_
  simp only [matmul]
  rw [Ideal.matmul_constant_zero_apply,
    ← Equiv.sum_comp (contrEquiv1 dot_S512x2048_S2048x64_S512x64_1_0_0_1_n_n 2048 rfl rfl).symm,
    ← sum_select_mul]
  refine Finset.sum_congr rfl fun j _ => ?_
  rw [scatter_lhsIdx, scatter_rhsIdx,
    oneHot_apply _ _ k.val (trip2_lt k) rq (rows_apply k.val (trip2_lt k) _) hw r j]
  rfl

end Cert.SampledAttn

end
-- ==== Proof.KernelBlock.lean ====
import proofs.«404377_j39393440039235_3_alg».proof.Proof.Gen.KernelIdeal.Frame
import proofs.«404377_j39393440039235_3_alg».proof.Proof.KernelMiddle
import proofs.«404377_j39393440039235_3_alg».proof.Proof.KernelOneHot
import Idealize.ShloMosaic.Lib.Pipeline.Value
import Idealize.ShloMosaic.Lib.Tactic

set_option maxRecDepth 16384

noncomputable section

namespace Cert.SampledAttn

open Cert.KernelIdeal Cert.KernelIdeal.Gen
open Idealize.ShloMosaic Idealize.ShloMosaic.TcCoe Idealize.SL.Sem Idealize.ShloMosaic.ValueIdx
open Idealize.ShloMosaic.Tactic

namespace Block

section Trips

variable {F : FTy → Type} [FloatOps F]

/-- One trip of the gather loop: each accumulator advanced by this trip's 512-row chunk of its plane. -/
theorem tripR_eq (𝒱 : Variants) (c : Dev nD) (bd : Option 𝒱.V) (i : grid0.Coords) (arg1 : Memref sig .tc .vmem S1x2048 .i32) (harg1 : arg1.IsWhole) (arg2 : Memref sig .tc .vmem S1x2048 .i32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x4096x64 .f32) (harg5 : arg5.IsWhole)
    (v0 v2 : Vec F S1x2048 .i32) (X3 : BufTy.Contents (Elt F) arg3.view.ty) (X4 : BufTy.Contents (Elt F) arg4.view.ty)
    (k : Fin k0_t1_loop.trips) (acc : FVec F S2048x64 .f32 × FVec F S2048x64 .f32) :
    tripR_k0_t1 (F := F) 𝒱 c bd i arg1 harg1 arg2 harg2 arg3 harg3 arg4 harg4 arg5 harg5 v0 v2 X3 X4 k acc
      = (k0_pay6 v0 k acc.1 (View.readAt (Elt F) arg3.view (Rect.unit (s := S1x4096x64) (k0_off1 k) S1x512x64.size (k0_off1_inb k)).toLoadRect X3),
         k0_pay7 v2 k acc.2 (View.readAt (Elt F) arg4.view (Rect.unit (s := S1x4096x64) (k0_off1 k) S1x512x64.size (k0_off1_inb k)).toLoadRect X4)) := by
  unfold tripR_k0_t1 trip_k0_t1
  rfl

/-- One trip of the scatter loop: one store, of this trip's 512 rows of the output block. -/
theorem tripL_eq (𝒱 : Variants) (c : Dev nD) (bd : Option 𝒱.V) (i : grid0.Coords) (arg1 : Memref sig .tc .vmem S1x2048 .i32) (harg1 : arg1.IsWhole) (arg2 : Memref sig .tc .vmem S1x2048 .i32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x4096x64 .f32) (harg5 : arg5.IsWhole)
    (v1 : IVec S1x2048 32) (v4 : IVec S512x2048 32) (vs av : FVec F S2048x64 .f32) (cst : F .f32) (k : Fin k0_t2_loop.trips) :
    tripL_k0_t2 (F := F) 𝒱 c bd i arg1 harg1 arg2 harg2 arg3 harg3 arg4 harg4 arg5 harg5 v1 v4 vs av cst k
      = [⟨Rect.unit (s := S1x4096x64) (k0_off2 k) S1x512x64.size (k0_off2_inb k), k0_pay1 v1 v4 vs av cst k⟩] := by
  unfold tripL_k0_t2 trip_k0_t2
  rfl

end Trips

theorem trips1 : k0_t1_loop.trips = 8 := by decide
theorem trips2 : k0_t2_loop.trips = 8 := by decide

/-- A 512-row chunk of a plane read at row r of the chunk: the plane at row 512 k + r. -/
theorem chunk_read (arg : Memref sig .tc .vmem S1x4096x64 .f32) (h : arg.IsWhole) (x : Vec Ideal S1x4096x64 .f32)
    (k : Fin k0_t1_loop.trips) (r : Fin 512) (d : Fin 64) (hr : 512 * k.val + r.val < 4096) :
    View.readAt (Elt Ideal) arg.view (Rect.unit (s := S1x4096x64) (k0_off1 k) S1x512x64.size (k0_off1_inb k)).toLoadRect (h.unread x)
        (ix3 (0 : Fin 1) r d) = x (ix3 (0 : Fin 1) ⟨512 * k.val + r.val, hr⟩ d) := by
  rw [View.readAt_eq_ld, h.read_unread]
  show x _ = x _
  congr 1
  funext a
  apply Fin.ext
  have ho := k0_off1_eq k
  match a with
  | ⟨0, _⟩ => show k0_off1 k 0 + 1 * 0 = 0; rw [ho]; rfl
  | ⟨1, _⟩ => show k0_off1 k 1 + 1 * r.val = 512 * k.val + r.val; rw [ho]; simp
  | ⟨2, _⟩ => show k0_off1 k 2 + 1 * d.val = d.val; rw [ho]; simp

/-- The rows below 512 k that equal t, plus the one row of chunk k that equals t: the rows below 512 (k + 1)
    that equal t. On the extended reals a + 0 = a and 0 + a = a for every a. -/
theorem acc_step (t k : ℕ) (X : EReal) (g : Fin 512 → EReal) (hg : ∀ r : Fin 512, t = 512 * k + r.val → g r = X) :
    (if t < 512 * k then X else 0) + (∑ r : Fin 512, if t = 512 * k + r.val then g r else 0)
      = if t < 512 * (k + 1) then X else 0 := by
  by_cases h1 : t < 512 * k
  · rw [if_pos h1, if_pos (by omega), Finset.sum_eq_zero (fun r _ => if_neg (by omega)), add_zero]
  · by_cases h2 : t < 512 * (k + 1)
    · have hr0 : t - 512 * k < 512 := by omega
      rw [if_neg h1, if_pos h2, zero_add, Finset.sum_eq_single (⟨t - 512 * k, hr0⟩ : Fin 512)]
      · have e : t = 512 * k + (⟨t - 512 * k, hr0⟩ : Fin 512).val := by show t = 512 * k + (t - 512 * k); omega
        rw [if_pos e]; exact hg _ e
      · intro b _ hb
        refine if_neg fun e => hb (Fin.ext ?_)
        show b.val = t - 512 * k; omega
      · intro hn; exact absurd (Finset.mem_univ _) hn
    · have hz : ∀ r : Fin 512, ¬ t = 512 * k + r.val := fun r => by have := r.isLt; omega
      rw [if_neg h1, if_neg h2, Finset.sum_eq_zero (fun r _ => if_neg (hz r)), add_zero]

/-- The zero the accumulators start from. -/
theorem pay3_apply (y : S2048x64.Idx) : k0_pay3 (F := Ideal) y = 0 := by
  unfold k0_pay3; exact Ideal.ofBits_zero_f32

theorem pay4_apply (y : S2048x64.Idx) : k0_pay4 (F := Ideal) y = 0 := by
  unfold k0_pay4; exact Ideal.ofBits_zero_f32

/-- The gather loop before trip n: sample j holds its sampled row of the plane once that row's chunk has been
    passed, zero before — for the query side and the value side alike. -/
theorem gather_apply (𝒱 : Variants) (c : Dev nD) (bd : Option 𝒱.V) (i : grid0.Coords) (arg1 : Memref sig .tc .vmem S1x2048 .i32) (harg1 : arg1.IsWhole) (arg2 : Memref sig .tc .vmem S1x2048 .i32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x4096x64 .f32) (harg5 : arg5.IsWhole)
    (v0 v2 : Vec Ideal S1x2048 .i32) (x2 x3 : Vec Ideal S1x4096x64 .f32) (rq rk : Fin 2048 → Fin 4096)
    (hq : ∀ j : Fin 2048, v0 (ix2 (0 : Fin 1) j) = BitVec.ofNat 32 (rq j).val)
    (hk : ∀ j : Fin 2048, v2 (ix2 (0 : Fin 1) j) = BitVec.ofNat 32 (rk j).val) :
    ∀ n : ℕ, n ≤ 8 → ∀ (j : Fin 2048) (d : Fin 64),
      (st_k0_t1 (F := Ideal) 𝒱 c bd i arg1 harg1 arg2 harg2 arg3 harg3 arg4 harg4 arg5 harg5 v0 v2 (harg3.unread x2) (harg4.unread x3) (k0_pay3, k0_pay4) n).1 (ix2 j d) = (if (rq j).val < 512 * n then x2 (ix3 (0 : Fin 1) (rq j) d) else 0)
      ∧ (st_k0_t1 (F := Ideal) 𝒱 c bd i arg1 harg1 arg2 harg2 arg3 harg3 arg4 harg4 arg5 harg5 v0 v2 (harg3.unread x2) (harg4.unread x3) (k0_pay3, k0_pay4) n).2 (ix2 j d) = (if (rk j).val < 512 * n then x3 (ix3 (0 : Fin 1) (rk j) d) else 0)
  | 0, _, j, d => by
    rw [st_k0_t1_zero]
    exact ⟨(pay3_apply (ix2 j d)).trans (if_neg (by omega)).symm, (pay4_apply (ix2 j d)).trans (if_neg (by omega)).symm⟩
  | n + 1, hn, j, d => by
    have hlt : n < k0_t1_loop.trips := by rw [trips1]; omega
    have e : (st_k0_t1 (F := Ideal) 𝒱 c bd i arg1 harg1 arg2 harg2 arg3 harg3 arg4 harg4 arg5 harg5 v0 v2 (harg3.unread x2) (harg4.unread x3) (k0_pay3, k0_pay4) (n + 1))
        = tripR_k0_t1 (F := Ideal) 𝒱 c bd i arg1 harg1 arg2 harg2 arg3 harg3 arg4 harg4 arg5 harg5 v0 v2 (harg3.unread x2) (harg4.unread x3) ⟨n, hlt⟩ (st_k0_t1 (F := Ideal) 𝒱 c bd i arg1 harg1 arg2 harg2 arg3 harg3 arg4 harg4 arg5 harg5 v0 v2 (harg3.unread x2) (harg4.unread x3) (k0_pay3, k0_pay4) n) :=
      st_k0_t1_succ (F := Ideal) 𝒱 c bd i arg1 harg1 arg2 harg2 arg3 harg3 arg4 harg4 arg5 harg5 v0 v2 (harg3.unread x2) (harg4.unread x3) (k0_pay3, k0_pay4) ⟨n, hlt⟩
    have ih := gather_apply 𝒱 c bd i arg1 harg1 arg2 harg2 arg3 harg3 arg4 harg4 arg5 harg5 v0 v2 x2 x3 rq rk hq hk n (by omega) j d
    rw [e, tripR_eq]
    constructor
    · refine (pay6_apply v0 ⟨n, hlt⟩ _ _ rq hq j d).trans ?_
      rw [ih.1]
      refine acc_step (rq j).val n _ _ fun r hr => ?_
      have hr' : 512 * n + r.val < 4096 := by rw [← hr]; exact (rq j).isLt
      refine (chunk_read arg3 harg3 x2 ⟨n, hlt⟩ r d hr').trans ?_
      congr 2
      exact Fin.ext hr.symm
    · refine (pay7_apply v2 ⟨n, hlt⟩ _ _ rk hk j d).trans ?_
      rw [ih.2]
      refine acc_step (rk j).val n _ _ fun r hr => ?_
      have hr' : 512 * n + r.val < 4096 := by rw [← hr]; exact (rk j).isLt
      refine (chunk_read arg4 harg4 x3 ⟨n, hlt⟩ r d hr').trans ?_
      congr 2
      exact Fin.ext hr.symm

/-- The output block the scatter loop fills, as one function of the block's index. -/
def blockOut (x2 x3 : Vec Ideal S1x4096x64 .f32) (rq rk : Fin 2048 → Fin 4096) : S1x4096x64.Idx → Elt Ideal .f32 := fun y =>
  planeOut (fun s d => x2 (ix3 (0 : Fin 1) s d)) (fun s d => x3 (ix3 (0 : Fin 1) s d)) rq rk (y 1) (y 2)

/-- Row r of the scatter loop's chunk k is row 512 k + r of the block. -/
theorem emb_chunk (k : Fin k0_t2_loop.trips) (r : Fin 512) (e : Fin 64) (hr : 512 * k.val + r.val < 4096) :
    (Rect.unit (s := S1x4096x64) (k0_off2 k) S1x512x64.size (k0_off2_inb k)).emb (ix3 (0 : Fin 1) r e)
      = ix3 (0 : Fin 1) ⟨512 * k.val + r.val, hr⟩ e := by
  funext a
  apply Fin.ext
  have ho := k0_off2_eq k
  match a with
  | ⟨0, _⟩ => show k0_off2 k 0 + 1 * 0 = 0; rw [ho]; rfl
  | ⟨1, _⟩ => show k0_off2 k 1 + 1 * r.val = 512 * k.val + r.val; rw [ho]; simp
  | ⟨2, _⟩ => show k0_off2 k 2 + 1 * e.val = e.val; rw [ho]; simp

/-- One store of the scatter loop agrees with the block function on its rectangle: the one-hot sum over the samples
    whose query row is row 512 k + r, of 4 attn + 2 v, is the plane function's row; the update row is
    four * attn + two * v by definition. -/
theorem piece_apply (v0 : Vec Ideal S1x2048 .i32) (qs vs : FVec Ideal S2048x64 .f32) (x2 x3 : Vec Ideal S1x4096x64 .f32)
    (rq rk : Fin 2048 → Fin 4096) (hq : ∀ j : Fin 2048, v0 (ix2 (0 : Fin 1) j) = BitVec.ofNat 32 (rq j).val)
    (hqs : ∀ (j : Fin 2048) (d : Fin 64), qs (ix2 j d) = x2 (ix3 (0 : Fin 1) (rq j) d))
    (hvs : ∀ (j : Fin 2048) (d : Fin 64), vs (ix2 j d) = x3 (ix3 (0 : Fin 1) (rk j) d))
    (k : Fin k0_t2_loop.trips) (r : Fin 512) (e : Fin 64) :
    k0_pay1 (F := Ideal) (k0_pay2 v0) (iota .tc S512x2048 32 [0] Facts₀.iota_S512x2048_d0_w32) vs (k0_pay8 qs vs) (Scalar.ofBits .f32 0x40000000#32) k (ix3 (0 : Fin 1) r e)
      = blockOut x2 x3 rq rk ((Rect.unit (s := S1x4096x64) (k0_off2 k) S1x512x64.size (k0_off2_inb k)).emb (ix3 (0 : Fin 1) r e)) := by
  have hk8 : k.val < 8 := Nat.lt_of_lt_of_le k.isLt (Nat.le_of_eq trips2)
  have hr : 512 * k.val + r.val < 4096 := by have := r.isLt; omega
  rw [emb_chunk k r e hr]
  refine (pay1_apply v0 vs (k0_pay8 qs vs) k rq hq r e).trans ?_
  show _ = planeOut _ _ rq rk ⟨512 * k.val + r.val, hr⟩ e
  unfold planeOut
  refine Finset.sum_congr rfl fun j _ => ?_
  refine if_congr ⟨fun h => Fin.ext h, fun h => congrArg Fin.val h⟩ ?_ rfl
  have eq : (fun j d => qs (ix2 j d)) = fun j d => x2 (ix3 (0 : Fin 1) (rq j) d) :=
    funext fun j => funext fun d => hqs j d
  have ev : (fun j d => vs (ix2 j d)) = fun j d => x3 (ix3 (0 : Fin 1) (rk j) d) :=
    funext fun j => funext fun d => hvs j d
  rw [pay8_apply qs vs j e, eq, ev, hvs j e]
  rfl

/-- An index of a block whose first extent is one. -/
theorem eq_ix3_unit {n1 n2 : Nat} (x : (⟨3, ![1, n1, n2]⟩ : Shape).Idx) : x = ix3 (0 : Fin 1) (x 1) (x 2) :=
  funext fun a => match a with
    | ⟨0, _⟩ => Fin.eq_zero (x 0)
    | ⟨1, _⟩ => rfl
    | ⟨2, _⟩ => rfl

/-- Every store of the scatter loop's first n trips agrees with the block function on its rectangle. -/
theorem pieces_agree (𝒱 : Variants) (c : Dev nD) (bd : Option 𝒱.V) (i : grid0.Coords) (arg1 : Memref sig .tc .vmem S1x2048 .i32) (harg1 : arg1.IsWhole) (arg2 : Memref sig .tc .vmem S1x2048 .i32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x4096x64 .f32) (harg5 : arg5.IsWhole)
    (v0 : Vec Ideal S1x2048 .i32) (qs vs : FVec Ideal S2048x64 .f32) (x2 x3 : Vec Ideal S1x4096x64 .f32)
    (rq rk : Fin 2048 → Fin 4096) (hq : ∀ j : Fin 2048, v0 (ix2 (0 : Fin 1) j) = BitVec.ofNat 32 (rq j).val)
    (hqs : ∀ (j : Fin 2048) (d : Fin 64), qs (ix2 j d) = x2 (ix3 (0 : Fin 1) (rq j) d))
    (hvs : ∀ (j : Fin 2048) (d : Fin 64), vs (ix2 j d) = x3 (ix3 (0 : Fin 1) (rk j) d)) :
    ∀ n : ℕ, n ≤ 8 → ∀ p ∈ (pb_k0_t2 (F := Ideal) 𝒱 c bd i arg1 harg1 arg2 harg2 arg3 harg3 arg4 harg4 arg5 harg5 (k0_pay2 v0) (iota .tc S512x2048 32 [0] Facts₀.iota_S512x2048_d0_w32) vs (k0_pay8 qs vs) (Scalar.ofBits .f32 0x40000000#32) n), ∀ x : p.1.shape.Idx, p.2 x = blockOut x2 x3 rq rk (p.1.emb x)
  | 0, _, p, hp, _ => absurd hp List.not_mem_nil
  | n + 1, hn, p, hp, x => by
    have hlt : n < k0_t2_loop.trips := by rw [trips2]; omega
    have e : (pb_k0_t2 (F := Ideal) 𝒱 c bd i arg1 harg1 arg2 harg2 arg3 harg3 arg4 harg4 arg5 harg5 (k0_pay2 v0) (iota .tc S512x2048 32 [0] Facts₀.iota_S512x2048_d0_w32) vs (k0_pay8 qs vs) (Scalar.ofBits .f32 0x40000000#32) (n + 1))
        = tripL_k0_t2 (F := Ideal) 𝒱 c bd i arg1 harg1 arg2 harg2 arg3 harg3 arg4 harg4 arg5 harg5 (k0_pay2 v0) (iota .tc S512x2048 32 [0] Facts₀.iota_S512x2048_d0_w32) vs (k0_pay8 qs vs) (Scalar.ofBits .f32 0x40000000#32) ⟨n, hlt⟩ ++ (pb_k0_t2 (F := Ideal) 𝒱 c bd i arg1 harg1 arg2 harg2 arg3 harg3 arg4 harg4 arg5 harg5 (k0_pay2 v0) (iota .tc S512x2048 32 [0] Facts₀.iota_S512x2048_d0_w32) vs (k0_pay8 qs vs) (Scalar.ofBits .f32 0x40000000#32) n) :=
      pb_k0_t2_succ (F := Ideal) 𝒱 c bd i arg1 harg1 arg2 harg2 arg3 harg3 arg4 harg4 arg5 harg5 (k0_pay2 v0) (iota .tc S512x2048 32 [0] Facts₀.iota_S512x2048_d0_w32) vs (k0_pay8 qs vs) (Scalar.ofBits .f32 0x40000000#32) ⟨n, hlt⟩
    rw [e, tripL_eq] at hp
    rcases List.mem_append.mp hp with h | h
    · obtain rfl := List.mem_singleton.mp h
      have hx : x = ix3 (0 : Fin 1) (x 1) (x 2) := eq_ix3_unit (n1 := 512) (n2 := 64) x
      rw [hx]
      exact piece_apply v0 qs vs x2 x3 rq rk hq hqs hvs ⟨n, hlt⟩ (x 1) (x 2)
    · exact pieces_agree 𝒱 c bd i arg1 harg1 arg2 harg2 arg3 harg3 arg4 harg4 arg5 harg5 v0 qs vs x2 x3 rq rk hq hqs hvs n (by omega) p h x

theorem hz2 : (![0, 0] : Fin 2 → Nat) = fun _ => 0 := funext fun a => by fin_cases a <;> rfl

/-- A whole index vector read back through the whole-shape rectangle. -/
theorem idx_read (arg : Memref sig .tc .vmem S1x2048 .i32) (h : arg.IsWhole) (x : Vec Ideal S1x2048 .i32) :
    View.readAt (Elt Ideal) arg.view (Rect.unit (s := S1x2048) ![0, 0] S1x2048.size inb_S1x2048_S1x2048_0_0).toLoadRect (h.unread x) = x := by
  rw [View.readAt_eq_ld, h.read_unread, View.ld_unit_zero hz2]

/-- The stores one grid point makes: the scatter loop's eight trips over the gather loop's final accumulators. -/
theorem run_pieces (c : Dev nD) (i : grid0.Coords) (arg1 : Memref sig .tc .vmem S1x2048 .i32) (harg1 : arg1.IsWhole) (arg2 : Memref sig .tc .vmem S1x2048 .i32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x4096x64 .f32) (harg5 : arg5.IsWhole)
    (x0 x1 : Vec Ideal S1x2048 .i32) (x2 x3 : Vec Ideal S1x4096x64 .f32) :
    (kernelRun0_A (F := Ideal) c i arg1 harg1 arg2 harg2 arg3 harg3 arg4 harg4 arg5 harg5 x0 x1 x2 x3).1
      = pb_k0_t2 (F := Ideal) Variants.none c none i arg1 harg1 arg2 harg2 arg3 harg3 arg4 harg4 arg5 harg5 (k0_pay2 x0) (iota .tc S512x2048 32 [0] Facts₀.iota_S512x2048_d0_w32)
          (st_k0_t1 (F := Ideal) Variants.none c none i arg1 harg1 arg2 harg2 arg3 harg3 arg4 harg4 arg5 harg5 x0 x1 (harg3.unread x2) (harg4.unread x3) (k0_pay3, k0_pay4) 8).2 (k0_pay8 (st_k0_t1 (F := Ideal) Variants.none c none i arg1 harg1 arg2 harg2 arg3 harg3 arg4 harg4 arg5 harg5 x0 x1 (harg3.unread x2) (harg4.unread x3) (k0_pay3, k0_pay4) 8).1 (st_k0_t1 (F := Ideal) Variants.none c none i arg1 harg1 arg2 harg2 arg3 harg3 arg4 harg4 arg5 harg5 x0 x1 (harg3.unread x2) (harg4.unread x3) (k0_pay3, k0_pay4) 8).2) (Scalar.ofBits .f32 0x40000000#32) 8 := by
  unfold kernelRun0_A
  dsimp only
  sl_unfold_run_names
  rw [idx_read, idx_read]
  rfl

end Block

/-- What one grid point leaves in the output block, read at (0, s, e): the plane function of the point's
    query and value blocks. -/
theorem out0_apply (c : Dev nD) (i : grid0.Coords) (arg1 : Memref sig .tc .vmem S1x2048 .i32) (harg1 : arg1.IsWhole) (arg2 : Memref sig .tc .vmem S1x2048 .i32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x4096x64 .f32) (harg5 : arg5.IsWhole)
    (x0 x1 : Vec Ideal S1x2048 .i32) (x2 x3 : Vec Ideal S1x4096x64 .f32) (rq rk : Fin 2048 → Fin 4096)
    (hq : ∀ j : Fin 2048, x0 (ix2 (0 : Fin 1) j) = BitVec.ofNat 32 (rq j).val)
    (hk : ∀ j : Fin 2048, x1 (ix2 (0 : Fin 1) j) = BitVec.ofNat 32 (rk j).val) (s : Fin 4096) (e : Fin 64) :
    out0_A_4 (F := Ideal) c i arg1 harg1 arg2 harg2 arg3 harg3 arg4 harg4 arg5 harg5 x0 x1 x2 x3 (ix3 (0 : Fin 1) s e)
      = planeOut (fun s d => x2 (ix3 (0 : Fin 1) s d)) (fun s d => x3 (ix3 (0 : Fin 1) s d)) rq rk s e := by
  unfold out0_A_4
  have hg := Block.gather_apply Variants.none c none i arg1 harg1 arg2 harg2 arg3 harg3 arg4 harg4 arg5 harg5 x0 x1 x2 x3 rq rk hq hk 8
    (Nat.le_refl 8)
  have hqs : ∀ (j : Fin 2048) (d : Fin 64), (st_k0_t1 (F := Ideal) Variants.none c none i arg1 harg1 arg2 harg2 arg3 harg3 arg4 harg4 arg5 harg5 x0 x1 (harg3.unread x2) (harg4.unread x3) (k0_pay3, k0_pay4) 8).1 (ix2 j d) = x2 (ix3 (0 : Fin 1) (rq j) d) :=
    fun j d => (hg j d).1.trans (if_pos (rq j).isLt)
  have hvs : ∀ (j : Fin 2048) (d : Fin 64), (st_k0_t1 (F := Ideal) Variants.none c none i arg1 harg1 arg2 harg2 arg3 harg3 arg4 harg4 arg5 harg5 x0 x1 (harg3.unread x2) (harg4.unread x3) (k0_pay3, k0_pay4) 8).2 (ix2 j d) = x3 (ix3 (0 : Fin 1) (rk j) d) :=
    fun j d => (hg j d).2.trans (if_pos (rk j).isLt)
  refine View.read_writes_apply_of_pieces VO0_4 VO0_4.junk (Block.blockOut x2 x3 rq rk) _ ?_ (ix3 (0 : Fin 1) s e)
    (cover0_A_4 c i arg1 harg1 arg2 harg2 arg3 harg3 arg4 harg4 arg5 harg5 x0 x1 x2 x3 (ix3 (0 : Fin 1) s e))
  rw [Block.run_pieces]
  exact Block.pieces_agree Variants.none c none i arg1 harg1 arg2 harg2 arg3 harg3 arg4 harg4 arg5 harg5 x0 _ _ x2 x3 rq rk hq hqs hvs 8
    (Nat.le_refl 8)

end Cert.SampledAttn

end
-- ==== Proof.KernelRun.lean ====
import proofs.«404377_j39393440039235_3_alg».proof.Proof.KernelBlock
import Idealize.ShloMosaic.Lib.Pipeline.Value

set_option maxRecDepth 16384

noncomputable section

namespace Cert.SampledAttn

open Cert.KernelIdeal Cert.KernelIdeal.Gen
open Idealize.ShloMosaic Idealize.ShloMosaic.TcCoe Idealize.SL.Sem Idealize.ShloMosaic.ValueIdx

/-! ## From the blocks to the whole result

The program reshapes the query and value arguments [2, 16, 4096, 64] to 32 planes [32, 4096, 64] and the two
index vectors [2048] to rows [1, 2048]; grid point `t` of the 32 reads the whole index rows and plane `t` of
each reshaped array and writes plane `t` of the result; the result [32, 4096, 64] is reshaped back to
[2, 16, 4096, 64]. Plane `t = 16 b + h` of a reshaped array is the (b, h) plane of the argument, since both
sit at the same row-major position. So every plane of the result is the plane function of the matching
planes of the arguments. -/

namespace KRun

section

variable (m : (ℓ : Loc nD τ sig) → Buf (Elt Ideal) ℓ)

/-! ### The arrays the grid reads: the arguments reshaped -/

/-- The query planes: the first argument read in row-major order as 32 planes. -/
theorem V_v0 (c : Dev nD) : (V m c main_v0 : S32x4096x64.Idx → EReal)
    = shapeCast S32x4096x64 (m ((c.tc : Thread nD τ).loc main_arg0)) shapeCasts_S2x16x4096x64_S32x4096x64 := by
  show StableHlo.after hostOps0 (fun b => m (c, b)) (Proc.devRef .tc main_v0) = _
  after_results
  rfl

/-- The value planes: the third argument read in row-major order as 32 planes. -/
theorem V_v1 (c : Dev nD) : (V m c main_v1 : S32x4096x64.Idx → EReal)
    = shapeCast S32x4096x64 (m ((c.tc : Thread nD τ).loc main_arg2)) shapeCasts_S2x16x4096x64_S32x4096x64 := by
  show StableHlo.after hostOps0 (fun b => m (c, b)) (Proc.devRef .tc main_v1) = _
  after_results
  rfl

/-- The query-index row: the fifth argument as one row. -/
theorem V_v2 (c : Dev nD) : (V m c main_v2 : S1x2048.Idx → BitVec 32)
    = shapeCast S1x2048 (m ((c.tc : Thread nD τ).loc main_arg4)) shapeCasts_S2048_S1x2048 := by
  show StableHlo.after hostOps0 (fun b => m (c, b)) (Proc.devRef .tc main_v2) = _
  after_results
  rfl

/-- The value-index row: the sixth argument as one row. -/
theorem V_v3 (c : Dev nD) : (V m c main_v3 : S1x2048.Idx → BitVec 32)
    = shapeCast S1x2048 (m ((c.tc : Thread nD τ).loc main_arg5)) shapeCasts_S2048_S1x2048 := by
  show StableHlo.after hostOps0 (fun b => m (c, b)) (Proc.devRef .tc main_v3) = _
  after_results
  rfl

/-- Plane `t = 16 b + h` of the query planes is the (b, h) plane of the first argument: the row-major positions
    `((16 b + h) · 4096 + s) · 64 + d` and `(((b · 16 + h) · 4096 + s) · 64 + d` are one number. -/
theorem v0_apply (c : Dev nD) (t : Fin 32) (b : Fin 2) (h : Fin 16) (s : Fin 4096) (d : Fin 64) (ht : t.val = 16 * b.val + h.val) :
    (V m c main_v0 : S32x4096x64.Idx → EReal) (ix3 t s d)
      = (m ((c.tc : Thread nD τ).loc main_arg0) : S2x16x4096x64.Idx → EReal) (ix4 b h s d) := by
  rw [V_v0]
  refine shapeCast_apply _ _ _ _ ?_
  show (S2x16x4096x64.rowMajor (ix4 b h s d)).val = (S32x4096x64.rowMajor (ix3 t s d)).val
  rw [Shape.rowMajor_val_four, Shape.rowMajor_val_three]
  show ((b.val * 16 + h.val) * 4096 + s.val) * 64 + d.val = (t.val * 4096 + s.val) * 64 + d.val
  rw [ht]; ring

/-- The same for the value planes and the third argument. -/
theorem v1_apply (c : Dev nD) (t : Fin 32) (b : Fin 2) (h : Fin 16) (s : Fin 4096) (d : Fin 64) (ht : t.val = 16 * b.val + h.val) :
    (V m c main_v1 : S32x4096x64.Idx → EReal) (ix3 t s d)
      = (m ((c.tc : Thread nD τ).loc main_arg2) : S2x16x4096x64.Idx → EReal) (ix4 b h s d) := by
  rw [V_v1]
  refine shapeCast_apply _ _ _ _ ?_
  show (S2x16x4096x64.rowMajor (ix4 b h s d)).val = (S32x4096x64.rowMajor (ix3 t s d)).val
  rw [Shape.rowMajor_val_four, Shape.rowMajor_val_three]
  show ((b.val * 16 + h.val) * 4096 + s.val) * 64 + d.val = (t.val * 4096 + s.val) * 64 + d.val
  rw [ht]; ring

/-- Entry `j` of the query-index row is entry `j` of the fifth argument. -/
theorem v2_apply (c : Dev nD) (j : Fin 2048) :
    (V m c main_v2 : S1x2048.Idx → BitVec 32) (ix2 (0 : Fin 1) j)
      = (m ((c.tc : Thread nD τ).loc main_arg4) : S2048.Idx → BitVec 32) (ix1 j) := by
  rw [V_v2]
  refine shapeCast_apply _ _ _ _ ?_
  show (S2048.rowMajor (ix1 j)).val = (S1x2048.rowMajor (ix2 (0 : Fin 1) j)).val
  rw [Shape.rowMajor_val_one, Shape.rowMajor_val_two]
  show j.val = 0 * 2048 + j.val
  omega

/-- Entry `j` of the value-index row is entry `j` of the sixth argument. -/
theorem v3_apply (c : Dev nD) (j : Fin 2048) :
    (V m c main_v3 : S1x2048.Idx → BitVec 32) (ix2 (0 : Fin 1) j)
      = (m ((c.tc : Thread nD τ).loc main_arg5) : S2048.Idx → BitVec 32) (ix1 j) := by
  rw [V_v3]
  refine shapeCast_apply _ _ _ _ ?_
  show (S2048.rowMajor (ix1 j)).val = (S1x2048.rowMajor (ix2 (0 : Fin 1) j)).val
  rw [Shape.rowMajor_val_one, Shape.rowMajor_val_two]
  show j.val = 0 * 2048 + j.val
  omega

/-! ### The blocks of a grid point -/

/-- The block indices over the grid: the index rows are block (0, 0) at every point; the query planes, the value
    planes and the result are at block (t, 0, 0) at point `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- A grid point as a plane number. -/
abbrev plane (t : Fin cfg0.N) : Fin 32 := ⟨t.val, Nat.lt_of_lt_of_eq t.isLt N_0⟩

/-- The query block of point `t` is plane `t` of the query planes: coordinate (0, s, d) of the block sits at
    (t · 1 + 0, 0 · 4096 + s, 0 · 64 + d) of the array. -/
theorem iblk2_apply (c : Dev nD) (t : Fin cfg0.N) (s : Fin 4096) (d : Fin 64) :
    (iblk m c 2 t : Vec Ideal S1x4096x64 .f32) (ix3 (0 : Fin 1) s d)
      = (V m c main_v0 : S32x4096x64.Idx → EReal) (ix3 (plane t) s d) := by
  obtain ⟨-, -, -, -, e0, e1, e2, -⟩ := idx_facts t
  unfold iblk
  rw [View.read_apply]
  show V m c main_v0 _ = V m c main_v0 _
  congr 1
  funext a; apply Fin.ext
  match a with
  | ⟨0, _⟩ => show win0_2.index t (0 : Fin 3) * 1 + 1 * 0 = t.val; omega
  | ⟨1, _⟩ => show win0_2.index t (1 : Fin 3) * 4096 + 1 * s.val = s.val; omega
  | ⟨2, _⟩ => show win0_2.index t (2 : Fin 3) * 64 + 1 * d.val = d.val; omega

/-- The value block of point `t` is plane `t` of the value planes. -/
theorem iblk3_apply (c : Dev nD) (t : Fin cfg0.N) (s : Fin 4096) (d : Fin 64) :
    (iblk m c 3 t : Vec Ideal S1x4096x64 .f32) (ix3 (0 : Fin 1) s d)
      = (V m c main_v1 : S32x4096x64.Idx → EReal) (ix3 (plane t) s d) := by
  obtain ⟨-, -, -, -, -, -, -, e0, e1, e2, -⟩ := idx_facts t
  unfold iblk
  rw [View.read_apply]
  show V m c main_v1 _ = V m c main_v1 _
  congr 1
  funext a; apply Fin.ext
  match a with
  | ⟨0, _⟩ => show win0_3.index t (0 : Fin 3) * 1 + 1 * 0 = t.val; omega
  | ⟨1, _⟩ => show win0_3.index t (1 : Fin 3) * 4096 + 1 * s.val = s.val; omega
  | ⟨2, _⟩ => show win0_3.index t (2 : Fin 3) * 64 + 1 * d.val = d.val; omega

/-- The query-index block is the whole row, at every point. -/
theorem iblk0_apply (c : Dev nD) (t : Fin cfg0.N) (j : Fin 2048) :
    (iblk m c 0 t : Vec Ideal S1x2048 .i32) (ix2 (0 : Fin 1) j)
      = (V m c main_v2 : S1x2048.Idx → BitVec 32) (ix2 (0 : Fin 1) j) := by
  obtain ⟨e0, e1, -⟩ := idx_facts t
  unfold iblk
  rw [View.read_apply]
  show V m c main_v2 _ = V m c main_v2 _
  congr 1
  funext a; apply Fin.ext
  match a with
  | ⟨0, _⟩ => show win0_0.index t (0 : Fin 2) * 1 + 1 * 0 = 0; omega
  | ⟨1, _⟩ => show win0_0.index t (1 : Fin 2) * 2048 + 1 * j.val = j.val; omega

/-- The value-index block is the whole row, at every point. -/
theorem iblk1_apply (c : Dev nD) (t : Fin cfg0.N) (j : Fin 2048) :
    (iblk m c 1 t : Vec Ideal S1x2048 .i32) (ix2 (0 : Fin 1) j)
      = (V m c main_v3 : S1x2048.Idx → BitVec 32) (ix2 (0 : Fin 1) j) := by
  obtain ⟨-, -, e0, e1, -⟩ := idx_facts t
  unfold iblk
  rw [View.read_apply]
  show V m c main_v3 _ = V m c main_v3 _
  congr 1
  funext a; apply Fin.ext
  match a with
  | ⟨0, _⟩ => show win0_1.index t (0 : Fin 2) * 1 + 1 * 0 = 0; omega
  | ⟨1, _⟩ => show win0_1.index t (1 : Fin 2) * 2048 + 1 * j.val = j.val; omega

/-! ### The result array as one function -/

/-- The 32 result planes as one function of the query planes `X` and the value planes `Y`: plane `t`, row `s`,
    feature `e` is the plane function of plane `t` of each, at (s, e). -/
def planesOf (X Y : S32x4096x64.Idx → EReal) (rq rk : Fin 2048 → Fin 4096) : S32x4096x64.Idx → EReal := fun i =>
  planeOut (fun s d => X (ix3 (i 0) s d)) (fun s d => Y (ix3 (i 0) s d)) rq rk (i 1) (i 2)

/-- Two one-plane blocks agree when they agree at every (0, s, e): the leading axis has one coordinate. -/
theorem block_ext (X Y : S1x4096x64.Idx → EReal)
    (h : ∀ (s : Fin 4096) (e : Fin 64), X (ix3 (0 : Fin 1) s e) = Y (ix3 (0 : Fin 1) s e)) : X = Y := by
  funext j
  obtain ⟨z, s, e, rfl⟩ : ∃ (z : Fin 1) (s : Fin 4096) (e : Fin 64), j = ix3 z s e := ⟨j 0, j 1, j 2, eq_ix3 j⟩
  obtain rfl : z = 0 := Subsingleton.elim _ _
  exact h s e

/-- Entry (0, s, e) of the result block of point `t` sits at (t, s, e) of the result planes. -/
theorem emb4 (t : Fin cfg0.N) (s : Fin 4096) (e : Fin 64) :
    ((cfg0.win 4).blk t).view.emb (ix3 (0 : Fin 1) s e) = (ix3 (plane t) s e : S32x4096x64.Idx) := by
  obtain ⟨-, -, -, -, -, -, -, -, -, -, e0, e1, e2⟩ := idx_facts t
  funext a; apply Fin.ext
  match a with
  | ⟨0, _⟩ => show win0_4.index t (0 : Fin 3) * 1 + 1 * 0 = t.val; omega
  | ⟨1, _⟩ => show win0_4.index t (1 : Fin 3) * 4096 + 1 * s.val = s.val; omega
  | ⟨2, _⟩ => show win0_4.index t (2 : Fin 3) * 64 + 1 * e.val = e.val; omega

variable (rq rk : Dev nD → Fin 2048 → Fin 4096)

/-- What point `t` writes back is block `t` of `planesOf`: the point's output block is the plane function of its
    query and value blocks, which are plane `t` of the query and value planes, and its index rows are the two
    index arguments, so they name the sampled rows `rq`, `rk`. -/
theorem flushed_eq
    (hq : ∀ (c : Dev nD) (j : Fin 2048), m ((c.tc : Thread nD τ).loc main_arg4) (ix1 j) = BitVec.ofNat 32 (rq c j).val)
    (hk : ∀ (c : Dev nD) (j : Fin 2048), m ((c.tc : Thread nD τ).loc main_arg5) (ix1 j) = BitVec.ofNat 32 (rk c j).val)
    (c : Dev nD) (t : Fin cfg0.N) :
    (dats m 0 c).flushed 4 t = ((cfg0.win 4).blk t).view.read (Elt Ideal)
      (planesOf (V m c main_v0) (V m c main_v1) (rq c) (rk c)) := by
  show (cfg0.win 4).cut (grid0.coords t) ((dats m 0 c).after 4 t) = _
  rw [after0_4]
  unfold outsAt0
  refine block_ext _ _ fun s e => ?_
  rw [View.read_apply]
  show out0_A_4 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (ix3 (0 : Fin 1) s e)
    = planesOf (V m c main_v0) (V m c main_v1) (rq c) (rk c) (((cfg0.win 4).blk t).view.emb (ix3 (0 : Fin 1) s e))
  rw [emb4 t s e]
  refine (out0_apply c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (rq c) (rk c)
    (fun j => (iblk0_apply m c t j).trans ((v2_apply m c j).trans (hq c j)))
    (fun j => (iblk1_apply m c t j).trans ((v3_apply m c j).trans (hk c j))) s e).trans ?_
  have hx : (fun (s : Fin 4096) (d : Fin 64) => (iblk m c 2 t : Vec Ideal S1x4096x64 .f32) (ix3 (0 : Fin 1) s d))
      = fun s d => (V m c main_v0 : S32x4096x64.Idx → EReal) (ix3 (plane t) s d) :=
    funext fun s => funext fun d => iblk2_apply m c t s d
  have hy : (fun (s : Fin 4096) (d : Fin 64) => (iblk m c 3 t : Vec Ideal S1x4096x64 .f32) (ix3 (0 : Fin 1) s d))
      = fun s d => (V m c main_v1 : S32x4096x64.Idx → EReal) (ix3 (plane t) s d) :=
    funext fun s => funext fun d => iblk3_apply m c t s d
  rw [hx, hy]
  rfl

/-- Every index (t, s, e) of the result planes lies in the block point `t` writes back: the 32 blocks tile them. -/
theorem cover (i : S32x4096x64.Idx) :
    ∃ t : Fin cfg0.N, (cfg0.win 4).flush t = true ∧ i ∈ ((cfg0.win 4).blk t).view.set := by
  have h0 : (i 0).val < 32 := (i 0).isLt
  have h1 : (i 1).val < 4096 := (i 1).isLt
  have h2 : (i 2).val < 64 := (i 2).isLt
  obtain ⟨t, ht⟩ : ∃ t : Fin cfg0.N, t.val = (i 0).val := ⟨⟨(i 0).val, Nat.lt_of_lt_of_eq h0 N_0.symm⟩, rfl⟩
  refine ⟨t, flush0_4 t, ?_⟩
  obtain ⟨-, -, -, -, -, -, -, -, -, -, e0, e1, e2⟩ := idx_facts t
  show i ∈ ((View.whole main_v4).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 4096 ≤ (i 1).val ∧ (i 1).val < win0_4.index t (1 : Fin 3) * 4096 + 4096
    omega
  | ⟨2, _⟩ =>
    show win0_4.index t (2 : Fin 3) * 64 ≤ (i 2).val ∧ (i 2).val < win0_4.index t (2 : Fin 3) * 64 + 64
    omega

/-- So the result planes end holding `planesOf` of the query and value planes. -/
theorem final
    (hq : ∀ (c : Dev nD) (j : Fin 2048), m ((c.tc : Thread nD τ).loc main_arg4) (ix1 j) = BitVec.ofNat 32 (rq c j).val)
    (hk : ∀ (c : Dev nD) (j : Fin 2048), m ((c.tc : Thread nD τ).loc main_arg5) (ix1 j) = BitVec.ofNat 32 (rk c j).val)
    (c : Dev nD) :
    (dats m 0 c).arrAt 4 cfg0.N = planesOf (V m c main_v0) (V m c main_v1) (rq c) (rk c) :=
  (dats m 0 c).arrAt_eq_of_cover 4 (planesOf (V m c main_v0) (V m c main_v1) (rq c) (rk c))
    (fun t _ => flushed_eq m rq rk hq hk c t) cover

/-- The last line of the program reshapes the result planes to [2, 16, 4096, 64]. -/
theorem tail_v5
    (hq : ∀ (c : Dev nD) (j : Fin 2048), m ((c.tc : Thread nD τ).loc main_arg4) (ix1 j) = BitVec.ofNat 32 (rq c j).val)
    (hk : ∀ (c : Dev nD) (j : Fin 2048), m ((c.tc : Thread nD τ).loc main_arg5) (ix1 j) = BitVec.ofNat 32 (rk c j).val)
    (c : Dev nD) :
    (Pipeline.afterTail₀ cfgs (dats m) 0 (V0 m) [hostOps1] c main_v5 : S2x16x4096x64.Idx → EReal)
      = shapeCast S2x16x4096x64 (planesOf (V m c main_v0) (V m c main_v1) (rq c) (rk c)) shapeCasts_S32x4096x64_S2x16x4096x64 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = planesOf (V m c main_v0) (V m c main_v1) (rq c) (rk c) :=
    (Pipeline.withArrays_arr spec0 launch0.win.arr_inj c _ _ 4).trans (final m rq rk hq hk c)
  rw [e]
  rfl

/-- The reshaped result at (b, h, s, e) is plane `16 b + h` of the result planes at (s, e), and that plane of the
    query and value planes is the (b, h) plane of the arguments: the plane function of those, which is `result`. -/
theorem result_eq (c : Dev nD) :
    shapeCast S2x16x4096x64 (planesOf (V m c main_v0) (V m c main_v1) (rq c) (rk c)) shapeCasts_S32x4096x64_S2x16x4096x64
      = result (m ((c.tc : Thread nD τ).loc main_arg0)) (m ((c.tc : Thread nD τ).loc main_arg2)) (rq c) (rk c) := by
  funext i
  obtain ⟨b, h, s, e, rfl⟩ : ∃ (b : Fin 2) (h : Fin 16) (s : Fin 4096) (e : Fin 64), i = ix4 b h s e :=
    ⟨i 0, i 1, i 2, i 3, eq_ix4 i⟩
  have hlt : 16 * b.val + h.val < 32 := by have := b.isLt; have := h.isLt; omega
  refine (shapeCast_apply _ _ _ (ix3 (⟨16 * b.val + h.val, hlt⟩ : Fin 32) s e) ?_).trans ?_
  · show (S32x4096x64.rowMajor (ix3 (⟨16 * b.val + h.val, hlt⟩ : Fin 32) s e)).val = (S2x16x4096x64.rowMajor (ix4 b h s e)).val
    rw [Shape.rowMajor_val_four, Shape.rowMajor_val_three]
    show ((16 * b.val + h.val) * 4096 + s.val) * 64 + e.val = ((b.val * 16 + h.val) * 4096 + s.val) * 64 + e.val
    ring
  · have hx : (fun (s : Fin 4096) (d : Fin 64) => (V m c main_v0 : S32x4096x64.Idx → EReal) (ix3 (⟨16 * b.val + h.val, hlt⟩ : Fin 32) s d))
        = fun s d => (m ((c.tc : Thread nD τ).loc main_arg0) : S2x16x4096x64.Idx → EReal) (ix4 b h s d) :=
      funext fun s => funext fun d => v0_apply m c ⟨16 * b.val + h.val, hlt⟩ b h s d rfl
    have hy : (fun (s : Fin 4096) (d : Fin 64) => (V m c main_v1 : S32x4096x64.Idx → EReal) (ix3 (⟨16 * b.val + h.val, hlt⟩ : Fin 32) s d))
        = fun s d => (m ((c.tc : Thread nD τ).loc main_arg2) : S2x16x4096x64.Idx → EReal) (ix4 b h s d) :=
      funext fun s => funext fun d => v1_apply m c ⟨16 * b.val + h.val, hlt⟩ b h s d rfl
    show planeOut (fun s d => (V m c main_v0 : S32x4096x64.Idx → EReal) (ix3 (⟨16 * b.val + h.val, hlt⟩ : Fin 32) s d))
        (fun s d => (V m c main_v1 : S32x4096x64.Idx → EReal) (ix3 (⟨16 * b.val + h.val, hlt⟩ : Fin 32) s d)) (rq c) (rk c) s e
      = planeOut (fun s d => (m ((c.tc : Thread nD τ).loc main_arg0) : S2x16x4096x64.Idx → EReal) (ix4 b h s d))
        (fun s d => (m ((c.tc : Thread nD τ).loc main_arg2) : S2x16x4096x64.Idx → EReal) (ix4 b h s d)) (rq c) (rk c) s e
    rw [hx, hy]

end

end KRun

/-- The idealized kernel's run: it terminates with the result array at `result` of the query and value
    arguments, the arguments unchanged. -/
theorem kernel_run (m : (ℓ : Loc nD τ sig) → Buf (Elt Ideal) ℓ) (ρ : Dev nD → PrngReg) (rq rk : Dev nD → Fin 2048 → Fin 4096)
    (hq : ∀ (c : Dev nD) (j : Fin 2048), m ((c.tc : Thread nD τ).loc main_arg4) (ix1 j) = BitVec.ofNat 32 (rq c j).val)
    (hk : ∀ (c : Dev nD) (j : Fin 2048), m ((c.tc : Thread nD τ).loc main_arg5) (ix1 j) = BitVec.ofNat 32 (rk c j).val) :
    θ_run (defs (F := Ideal)) (onTc (τ := τ) (main (F := Ideal))) ⟨m, fun _ => 0, ρ⟩ (fun r => ∀ c : Dev nD,
      r.2.mem ((c.tc : Thread nD τ).loc main_v5)
          = result (m ((c.tc : Thread nD τ).loc main_arg0)) (m ((c.tc : Thread nD τ).loc main_arg2)) (rq c) (rk c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v5 (Pipeline.mem_restRefs_of main_v5 (by decide) (by decide))).trans
        ((KRun.tail_v5 m rq rk hq hk c).trans (KRun.result_eq m rq rk c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.SampledAttn

end
-- ==== Proof.RefIndexed.lean ====
import proofs.«404377_j39393440039235_3_alg».proof.Proof.Gen.ReferenceIdeal.Read
import proofs.«404377_j39393440039235_3_alg».proof.Proof.Spec
import Idealize.ShloMosaic.Lib.StableHlo.Predicate

set_option maxRecDepth 16384

noncomputable section

namespace Cert.SampledAttn

open Cert.ReferenceIdeal Cert.ReferenceIdeal.Gen Cert.ReferenceIdeal.Read
open Idealize.ShloMosaic Idealize.ShloMosaic.TcCoe Idealize.SL.Sem Idealize.ShloMosaic.ValueIdx

/-!
# The reference's row gathers and row scatter, read at an index

Both gathers take rows of a [2, 16, 4096, 64] table on its third axis, at a [2048, 1] column of start
indices; the scatter adds [2, 16, 2048, 64] update rows into a zero table of the same shape at the same
kind of column. Every index word is the word of a row number below 4096, so the wrap of negative
indices is the identity, the gather's clamp into [0, 4095] changes nothing, and no update row leaves
the table. Hence result element (b, h, j, d) of a gather is the table at (b, h, r j, d), and element
(b, h, s, e) of the scatter is the sum of the update elements (b, h, j, e) over the samples j with
r j = s.
-/

/-! ## Index words

A row number below 4096, as a 32-bit word, is not negative read signed: the wrap of a negative index
(`idx + 4096` where `idx < 0`) leaves it as it is, and read signed it is the row number again. -/

/-- The wrap `select (w < 0) (w + 4096) w` of the word of a row number below 4096 is that word. -/
theorem wrap_word (n : Nat) (hn : n < 4096) :
    Scalar.select (IntOp.cmpi .slt (BitVec.ofNat 32 n) 0#32) (IntOp.addi (BitVec.ofNat 32 n) 4096#32) (BitVec.ofNat 32 n)
      = BitVec.ofNat 32 n := by
  have h0 : IntOp.cmpi .slt (BitVec.ofNat 32 n) 0#32 = 0#1 := by
    unfold IntOp.cmpi
    have : (BitVec.ofNat 32 n).slt 0#32 = false := by
      simp only [BitVec.slt, StableHlo.Predicate.toInt_ofNat_small n (by omega), BitVec.toInt_zero, decide_eq_false_iff_not, Int.not_lt]
      exact Int.natCast_nonneg n
    rw [this]; rfl
  rw [h0]
  exact if_neg (by decide)

/-- The query gather's start index of sample `j`: the word of `rq j`. -/
theorem startQ_apply (x4 : (⟨S2048, .i32⟩ : BufTy).Contents (Elt Ideal))
    (rq : Fin 2048 → Fin 4096) (hq : ∀ j : Fin 2048, x4 (ix1 j) = BitVec.ofNat 32 (rq j).val) (j : Fin 2048) :
    val_main_v5 (F := Ideal) x4 (ix2 j 0) = BitVec.ofNat 32 (rq j).val := by
  have hi : idx_main_v5 (ix2 j (0 : Fin 1)) = ix1 j := by
    funext a; match a with | ⟨0, _⟩ => rfl
  refine (val_main_v5_apply x4 _).trans ((congrArg (val_main_v4 (F := Ideal) x4) hi).trans ?_)
  rw [val_main_v4_apply, val_main_v1_apply, val_main_v3_apply, val_main_v0_apply, val_main_v2_apply,
    val_main_c_apply, val_main_c_0_apply, hq j]
  exact wrap_word _ (rq j).isLt

/-- The value gather's start index of sample `j`: the word of `rk j`. -/
theorem startV_apply (x5 : (⟨S2048, .i32⟩ : BufTy).Contents (Elt Ideal))
    (rk : Fin 2048 → Fin 4096) (hk : ∀ j : Fin 2048, x5 (ix1 j) = BitVec.ofNat 32 (rk j).val) (j : Fin 2048) :
    val_main_v12 (F := Ideal) x5 (ix2 j 0) = BitVec.ofNat 32 (rk j).val := by
  have hi : idx_main_v12 (ix2 j (0 : Fin 1)) = ix1 j := by
    funext a; match a with | ⟨0, _⟩ => rfl
  refine (val_main_v12_apply x5 _).trans ((congrArg (val_main_v11 (F := Ideal) x5) hi).trans ?_)
  rw [val_main_v11_apply, val_main_v8_apply, val_main_v10_apply, val_main_v7_apply, val_main_v9_apply,
    val_main_c_1_apply, val_main_c_2_apply, hk j]
  exact wrap_word _ (rk j).isLt

/-- The scatter's index of update row `j`: the word of `rq j`. -/
theorem startS_apply (x4 : (⟨S2048, .i32⟩ : BufTy).Contents (Elt Ideal))
    (rq : Fin 2048 → Fin 4096) (hq : ∀ j : Fin 2048, x4 (ix1 j) = BitVec.ofNat 32 (rq j).val) (j : Fin 2048) :
    val_main_v49 (F := Ideal) x4 (ix2 j 0) = BitVec.ofNat 32 (rq j).val := by
  have hi : idx_main_v49 (ix2 j (0 : Fin 1)) = ix1 j := by
    funext a; match a with | ⟨0, _⟩ => rfl
  refine (val_main_v49_apply x4 _).trans ((congrArg (val_main_v48 (F := Ideal) x4) hi).trans ?_)
  rw [val_main_v48_apply, val_main_v45_apply, val_main_v47_apply, val_main_v44_apply, val_main_v46_apply,
    val_main_c_11_apply, val_main_c_12_apply, hq j]
  exact wrap_word _ (rq j).isLt

/-! ## The row gather -/

/-- The operand index the row gather reads for result index (b, h, j, d): the batch, head and feature
    coordinates pass through (offset axes), the row is the start index of sample `j`, read signed and
    clamped into the table's 4096 rows. -/
theorem gather_operandIdx (idx : IVec S2048x1 32) (b : Fin 2) (h : Fin 16) (j : Fin 2048) (d : Fin 64) :
    gather_S2x16x4096x64_S2048x1_S2x16x2048x64_013_2_n_n_2_1_216164.operandIdx (ix4 b h j d) idx
      = ix4 b h ⟨min (idx (ix2 j 0)).toInt.toNat 4095, by omega⟩ d := by
  funext a
  refine Fin.ext ?_
  match a with
  | ⟨0, _⟩ =>
    show GatherDims.start _ _ _ _ + GatherDims.batchCoord _ _ _ + GatherDims.offCoord _ _ _ = _
    rw [GatherDims.batchCoord_eq_zero _ _ _ List.not_mem_nil]
    have hs : GatherDims.start gather_S2x16x4096x64_S2048x1_S2x16x2048x64_013_2_n_n_2_1_216164 (ix4 b h j d) idx ⟨0, by decide⟩ = 0 := by
      unfold GatherDims.start
      exact dif_neg (by decide)
    rw [hs, Nat.add_zero, Nat.zero_add]
    rfl
  | ⟨1, _⟩ =>
    show GatherDims.start _ _ _ _ + GatherDims.batchCoord _ _ _ + GatherDims.offCoord _ _ _ = _
    rw [GatherDims.batchCoord_eq_zero _ _ _ List.not_mem_nil]
    have hs : GatherDims.start gather_S2x16x4096x64_S2048x1_S2x16x2048x64_013_2_n_n_2_1_216164 (ix4 b h j d) idx ⟨1, by decide⟩ = 0 := by
      unfold GatherDims.start
      exact dif_neg (by decide)
    rw [hs, Nat.add_zero, Nat.zero_add]
    rfl
  | ⟨2, _⟩ =>
    show GatherDims.start gather_S2x16x4096x64_S2048x1_S2x16x2048x64_013_2_n_n_2_1_216164 (ix4 b h j d) idx (2 : Fin 4) + GatherDims.batchCoord gather_S2x16x4096x64_S2048x1_S2x16x2048x64_013_2_n_n_2_1_216164 (ix4 b h j d) (2 : Fin 4)
      + GatherDims.offCoord gather_S2x16x4096x64_S2048x1_S2x16x2048x64_013_2_n_n_2_1_216164 (ix4 b h j d) (2 : Fin 4) = _
    have hk : (2 : Fin 4) ∉ GatherDims.sKept gather_S2x16x4096x64_S2048x1_S2x16x2048x64_013_2_n_n_2_1_216164 := by decide
    have hm : (2 : Fin 4) ∈ GatherDims.startIndexMap gather_S2x16x4096x64_S2048x1_S2x16x2048x64_013_2_n_n_2_1_216164 := by decide
    rw [GatherDims.batchCoord_eq_zero _ _ _ List.not_mem_nil,
      GatherDims.offCoord_eq_zero _ _ _ hk, Nat.add_zero]
    unfold GatherDims.start
    rw [dif_pos hm]
    have hsi : GatherDims.siIdx gather_S2x16x4096x64_S2048x1_S2x16x2048x64_013_2_n_n_2_1_216164 (ix4 b h j d)
        ⟨List.idxOf (2 : Fin 4) (GatherDims.startIndexMap gather_S2x16x4096x64_S2048x1_S2x16x2048x64_013_2_n_n_2_1_216164), List.idxOf_lt_length_iff.2 hm⟩ = ix2 j 0 := by
      funext c; refine Fin.ext ?_
      match c with
      | ⟨0, _⟩ => rfl
      | ⟨1, _⟩ => rfl
    rw [hsi]
    rfl
  | ⟨3, _⟩ =>
    show GatherDims.start _ _ _ _ + GatherDims.batchCoord _ _ _ + GatherDims.offCoord _ _ _ = _
    rw [GatherDims.batchCoord_eq_zero _ _ _ List.not_mem_nil]
    have hs : GatherDims.start gather_S2x16x4096x64_S2048x1_S2x16x2048x64_013_2_n_n_2_1_216164 (ix4 b h j d) idx ⟨3, by decide⟩ = 0 := by
      unfold GatherDims.start
      exact dif_neg (by decide)
    rw [hs, Nat.add_zero, Nat.zero_add]
    rfl

/-- The gathered queries read at (b, h, j, d): the query at sampled row `rq j`. -/
theorem gatherQ_apply (x0 : (⟨S2x16x4096x64, .f32⟩ : BufTy).Contents (Elt Ideal)) (x4 : (⟨S2048, .i32⟩ : BufTy).Contents (Elt Ideal))
    (rq : Fin 2048 → Fin 4096) (hq : ∀ j : Fin 2048, x4 (ix1 j) = BitVec.ofNat 32 (rq j).val)
    (b : Fin 2) (h : Fin 16) (j : Fin 2048) (d : Fin 64) :
    val_main_v6 (F := Ideal) x0 x4 (ix4 b h j d) = x0 (ix4 b h (rq j) d) := by
  unfold val_main_v6 Host.gather
  refine (congrArg x0 (gather_operandIdx _ b h j d)).trans ?_
  refine congrArg (fun r => x0 (ix4 b h r d)) (Fin.ext ?_)
  show min (val_main_v5 (F := Ideal) x4 (ix2 j 0)).toInt.toNat 4095 = (rq j).val
  rw [startQ_apply x4 rq hq j, StableHlo.Predicate.toInt_ofNat_small _ (by have := (rq j).isLt; omega), Int.toNat_natCast]
  exact Nat.min_eq_left (by have := (rq j).isLt; omega)

/-- The gathered values read at (b, h, j, d). -/
theorem gatherV_apply (x2 : (⟨S2x16x4096x64, .f32⟩ : BufTy).Contents (Elt Ideal)) (x5 : (⟨S2048, .i32⟩ : BufTy).Contents (Elt Ideal))
    (rk : Fin 2048 → Fin 4096) (hk : ∀ j : Fin 2048, x5 (ix1 j) = BitVec.ofNat 32 (rk j).val)
    (b : Fin 2) (h : Fin 16) (j : Fin 2048) (d : Fin 64) :
    val_main_v13 (F := Ideal) x2 x5 (ix4 b h j d) = x2 (ix4 b h (rk j) d) := by
  unfold val_main_v13 Host.gather
  refine (congrArg x2 (gather_operandIdx _ b h j d)).trans ?_
  refine congrArg (fun r => x2 (ix4 b h r d)) (Fin.ext ?_)
  show min (val_main_v12 (F := Ideal) x5 (ix2 j 0)).toInt.toNat 4095 = (rk j).val
  rw [startV_apply x5 rk hk j, StableHlo.Predicate.toInt_ofNat_small _ (by have := (rk j).isLt; omega), Int.toNat_natCast]
  exact Nat.min_eq_left (by have := (rk j).isLt; omega)

/-! ## The accumulating row scatter -/

/-- Where update element (b, h, j, e) lands, axis by axis: batch, head and feature pass through
    (window axes), the row is the scatter index of update row `j`, read signed. -/
theorem scatter_coord (idx : IVec S2048x1 32) (b : Fin 2) (h : Fin 16) (j : Fin 2048) (e : Fin 64) (n : Fin 4096)
    (hidx : idx (ix2 j 0) = BitVec.ofNat 32 n.val) (a : Fin 4) :
    scatter_S2x16x4096x64_S2048x1_S2x16x2048x64_013_2_2_1.start (ix4 b h j e) idx a + (scatter_S2x16x4096x64_S2048x1_S2x16x2048x64_013_2_2_1.window (ix4 b h j e) a : Int) = ((ix4 b h n e a).val : Int) := by
  match a with
  | ⟨0, _⟩ =>
    show ScatterDims.start scatter_S2x16x4096x64_S2048x1_S2x16x2048x64_013_2_2_1 (ix4 b h j e) idx (0 : Fin 4) + ((ScatterDims.window scatter_S2x16x4096x64_S2048x1_S2x16x2048x64_013_2_2_1 (ix4 b h j e) (0 : Fin 4) : Nat) : Int) = _
    have hs : ScatterDims.start scatter_S2x16x4096x64_S2048x1_S2x16x2048x64_013_2_2_1 (ix4 b h j e) idx (0 : Fin 4) = 0 := by
      unfold ScatterDims.start
      exact dif_neg (by decide)
    rw [hs, Int.zero_add]
    rfl
  | ⟨1, _⟩ =>
    show ScatterDims.start scatter_S2x16x4096x64_S2048x1_S2x16x2048x64_013_2_2_1 (ix4 b h j e) idx (1 : Fin 4) + ((ScatterDims.window scatter_S2x16x4096x64_S2048x1_S2x16x2048x64_013_2_2_1 (ix4 b h j e) (1 : Fin 4) : Nat) : Int) = _
    have hs : ScatterDims.start scatter_S2x16x4096x64_S2048x1_S2x16x2048x64_013_2_2_1 (ix4 b h j e) idx (1 : Fin 4) = 0 := by
      unfold ScatterDims.start
      exact dif_neg (by decide)
    rw [hs, Int.zero_add]
    rfl
  | ⟨2, _⟩ =>
    show ScatterDims.start scatter_S2x16x4096x64_S2048x1_S2x16x2048x64_013_2_2_1 (ix4 b h j e) idx (2 : Fin 4) + ((ScatterDims.window scatter_S2x16x4096x64_S2048x1_S2x16x2048x64_013_2_2_1 (ix4 b h j e) (2 : Fin 4) : Nat) : Int) = _
    have hm : (2 : Fin 4) ∈ ScatterDims.scatterDimsToOperandDims scatter_S2x16x4096x64_S2048x1_S2x16x2048x64_013_2_2_1 := by decide
    have hw : ScatterDims.window scatter_S2x16x4096x64_S2048x1_S2x16x2048x64_013_2_2_1 (ix4 b h j e) (2 : Fin 4) = 0 := by
      unfold ScatterDims.window
      exact dif_neg (by decide)
    rw [hw]
    unfold ScatterDims.start
    rw [dif_pos hm]
    have hsi : ScatterDims.siIdx scatter_S2x16x4096x64_S2048x1_S2x16x2048x64_013_2_2_1 (ix4 b h j e)
        ⟨List.idxOf (2 : Fin 4) (ScatterDims.scatterDimsToOperandDims scatter_S2x16x4096x64_S2048x1_S2x16x2048x64_013_2_2_1), List.idxOf_lt_length_iff.2 hm⟩ = ix2 j 0 := by
      funext c; refine Fin.ext ?_
      match c with
      | ⟨0, _⟩ => rfl
      | ⟨1, _⟩ => rfl
    rw [hsi, hidx, StableHlo.Predicate.toInt_ofNat_small _ (by have := n.isLt; omega)]
    rfl
  | ⟨3, _⟩ =>
    show ScatterDims.start scatter_S2x16x4096x64_S2048x1_S2x16x2048x64_013_2_2_1 (ix4 b h j e) idx (3 : Fin 4) + ((ScatterDims.window scatter_S2x16x4096x64_S2048x1_S2x16x2048x64_013_2_2_1 (ix4 b h j e) (3 : Fin 4) : Nat) : Int) = _
    have hs : ScatterDims.start scatter_S2x16x4096x64_S2048x1_S2x16x2048x64_013_2_2_1 (ix4 b h j e) idx (3 : Fin 4) = 0 := by
      unfold ScatterDims.start
      exact dif_neg (by decide)
    rw [hs, Int.zero_add]
    rfl

/-- An update element whose row index is the word of a row number below 4096 is never dropped: it lands
    on that row, at its own batch, head and feature. -/
theorem scatter_resultIdx (idx : IVec S2048x1 32) (b : Fin 2) (h : Fin 16) (j : Fin 2048) (e : Fin 64) (n : Fin 4096)
    (hidx : idx (ix2 j 0) = BitVec.ofNat 32 n.val) :
    scatter_S2x16x4096x64_S2048x1_S2x16x2048x64_013_2_2_1.resultIdx? (ix4 b h j e) idx = some (ix4 b h n e) := by
  have hc := scatter_coord idx b h j e n hidx
  unfold ScatterDims.resultIdx?
  rw [dif_pos (fun a => by
    rw [hc a]
    exact ⟨Int.natCast_nonneg _, Int.ofNat_lt.2 (ix4 b h n e a).isLt⟩)]
  refine congrArg some ?_
  funext a
  refine Fin.ext ?_
  show (scatter_S2x16x4096x64_S2048x1_S2x16x2048x64_013_2_2_1.start (ix4 b h j e) idx a + (scatter_S2x16x4096x64_S2048x1_S2x16x2048x64_013_2_2_1.window (ix4 b h j e) a : Int)).toNat = _
  rw [hc a]
  exact Int.toNat_natCast _

/-- Every update element lands: at its own batch, head and feature, on the row its index word names. -/
theorem scatter_resultIdx_of (idx : IVec S2048x1 32) (rq : Fin 2048 → Fin 4096)
    (hidx : ∀ j : Fin 2048, idx (ix2 j 0) = BitVec.ofNat 32 (rq j).val) (u : (⟨4, ![2, 16, 2048, 64]⟩ : Shape).Idx) :
    scatter_S2x16x4096x64_S2048x1_S2x16x2048x64_013_2_2_1.resultIdx? u idx = some (ix4 (u 0) (u 1) (rq (u 2)) (u 3)) :=
  (congrArg (fun v => scatter_S2x16x4096x64_S2048x1_S2x16x2048x64_013_2_2_1.resultIdx? v idx) (eq_ix4 u)).trans
    (scatter_resultIdx idx (u 0) (u 1) (u 2) (u 3) (rq (u 2)) (hidx (u 2)))

/-- The scattered result read at (b, h, s, e): from zero, the update rows whose sampled query row is `s`. -/
theorem scatter_apply (x0 x2 : (⟨S2x16x4096x64, .f32⟩ : BufTy).Contents (Elt Ideal)) (x4 x5 : (⟨S2048, .i32⟩ : BufTy).Contents (Elt Ideal))
    (rq : Fin 2048 → Fin 4096) (hq : ∀ j : Fin 2048, x4 (ix1 j) = BitVec.ofNat 32 (rq j).val)
    (b : Fin 2) (h : Fin 16) (s : Fin 4096) (e : Fin 64) :
    val_main_v50 (F := Ideal) x0 x2 x4 x5 (ix4 b h s e)
      = ∑ j : Fin 2048, if rq j = s then val_main_v42 (F := Ideal) x0 x2 x4 x5 (ix4 b h j e) else 0 := by
  have hidx := startS_apply x4 rq hq
  -- an update element lands on (b, h, s, e) exactly when it is (b, h, j, e) for a sample j with rq j = s
  have hland : ∀ u : (⟨4, ![2, 16, 2048, 64]⟩ : Shape).Idx,
      scatter_S2x16x4096x64_S2048x1_S2x16x2048x64_013_2_2_1.resultIdx? u (val_main_v49 (F := Ideal) x4) = some (ix4 b h s e) →
        ix4 b h (u 2) e = u ∧ rq (u 2) = s := by
    intro u hu
    rw [scatter_resultIdx_of _ rq hidx u] at hu
    have hv := Option.some.inj hu
    have h0 : u 0 = b := congrFun hv 0
    have h1 : u 1 = h := congrFun hv 1
    have h2 : rq (u 2) = s := congrFun hv 2
    have h3 : u 3 = e := congrFun hv 3
    refine ⟨?_, h2⟩
    rw [← h0, ← h1, ← h3]
    exact (eq_ix4 u).symm
  unfold val_main_v50 Host.scatterAdd
  rw [Ideal.hostScatterAdd_def]
  show val_main_v43 (F := Ideal) (ix4 b h s e)
      + ∑ u ∈ Finset.univ.filter (fun u => scatter_S2x16x4096x64_S2048x1_S2x16x2048x64_013_2_2_1.resultIdx? u (val_main_v49 (F := Ideal) x4) = some (ix4 b h s e)),
          val_main_v42 (F := Ideal) x0 x2 x4 x5 u = _
  rw [val_main_v43_apply, val_main_cst_10_apply, Ideal.ofBits_def, Ideal.ofBits_zero_f32, zero_add, ← Finset.sum_filter]
  refine Finset.sum_bij' (fun u _ => u 2) (fun j _ => ix4 b h j e) ?_ ?_ ?_ ?_ ?_
  · intro u hu
    exact Finset.mem_filter.2 ⟨Finset.mem_univ _, (hland u (Finset.mem_filter.1 hu).2).2⟩
  · intro j hj
    refine Finset.mem_filter.2 ⟨Finset.mem_univ _, ?_⟩
    rw [scatter_resultIdx _ b h j e (rq j) (hidx j), (Finset.mem_filter.1 hj).2]
  · intro u hu
    exact (hland u (Finset.mem_filter.1 hu).2).1
  · intro j hj
    rfl
  · intro u hu
    exact congrArg (val_main_v42 (F := Ideal) x0 x2 x4 x5) (hland u (Finset.mem_filter.1 hu).2).1.symm

end Cert.SampledAttn

end
-- ==== Proof.RefMiddle.lean ====
import proofs.«404377_j39393440039235_3_alg».proof.Proof.Gen.ReferenceIdeal.Read
import proofs.«404377_j39393440039235_3_alg».proof.Proof.Spec

set_option maxRecDepth 16384

noncomputable section

namespace Cert.SampledAttn

open Cert.ReferenceIdeal Cert.ReferenceIdeal.Gen Cert.ReferenceIdeal.Read
open Idealize.ShloMosaic Idealize.ShloMosaic.TcCoe Idealize.SL.Sem Idealize.ShloMosaic.ValueIdx

section Stages

variable (x0 x2 : (⟨S2x16x4096x64, .f32⟩ : BufTy).Contents (Elt Ideal)) (x4 x5 : (⟨S2048, .i32⟩ : BufTy).Contents (Elt Ideal))
  (b : Fin 2) (h : Fin 16)

/-- The gathered query plane of (b, h). -/
private abbrev qP : Fin 2048 → Fin 64 → EReal := fun j d => val_main_v6 (F := Ideal) x0 x4 (ix4 b h j d)
/-- The gathered value plane of (b, h). -/
private abbrev vP : Fin 2048 → Fin 64 → EReal := fun j d => val_main_v13 (F := Ideal) x2 x5 (ix4 b h j d)

/-- The fold of the maximum over the 64 features of sampled row j. -/
private theorem v14_at (j : Fin 2048) :
    val_main_v14 (F := Ideal) x0 x4 (ix3 b h j)
      = (Finset.univ : Finset (Fin 64)).fold max negInf (fun d => val_main_v6 (F := Ideal) x0 x4 (ix4 b h j d)) := by
  unfold val_main_v14
  generalize val_main_v6 (F := Ideal) x0 x4 = y
  refine (Host.reduce_eq_fold_single _ y _ reducesTo_S2x16x2048x64_S2x16x2048_d3 (by decide) h_S_ (ix3 b h j)).trans ?_
  refine congrArg (fun f : Fin 64 → EReal => Finset.fold max negInf f Finset.univ) (funext fun d => congrArg y (funext fun a => Fin.ext ?_))
  match a with | ⟨0, _⟩ => rfl | ⟨1, _⟩ => rfl | ⟨2, _⟩ => rfl | ⟨3, _⟩ => rfl

/-- Joined with -∞ once more it is the row maximum. -/
private theorem v16_at (j : Fin 2048) :
    val_main_v16 (F := Ideal) x0 x4 (ix3 b h j) = rowMax (qP x0 x4 b h) j := by
  rw [val_main_v16_apply, val_main_v15_apply, val_main_cst_3_apply, v14_at]
  rfl

/-- The two broadcasts read the row maximum at (b, h, j). -/
private theorem v18_at (j : Fin 2048) (d : Fin 64) :
    val_main_v18 (F := Ideal) x0 x4 (ix4 b h j d) = rowMax (qP x0 x4 b h) j := by
  rw [val_main_v18_apply, val_main_v17_apply]
  refine Eq.trans (congrArg (val_main_v16 (F := Ideal) x0 x4) (funext fun a => ?_)) (v16_at x0 x4 b h j)
  match a with | ⟨0, _⟩ => rfl | ⟨1, _⟩ => rfl | ⟨2, _⟩ => rfl

/-- The shifted exponential. -/
private theorem v20_at (j : Fin 2048) (d : Fin 64) :
    val_main_v20 (F := Ideal) x0 x4 (ix4 b h j d) = rowExp (qP x0 x4 b h) j d := by
  rw [val_main_v20_apply, val_main_v19_apply, v18_at]
  rfl

/-- The sum of the shifted exponentials over the 64 features: the host's initial word is zero. -/
private theorem v21_at (j : Fin 2048) :
    val_main_v21 (F := Ideal) x0 x4 (ix3 b h j) = rowSum (qP x0 x4 b h) j := by
  rw [val_main_v21_apply, val_main_cst_4_apply]
  refine (congrArg (· + _) Ideal.ofBits_zero_f32).trans ((zero_add _).trans ?_)
  refine Finset.sum_congr rfl fun k _ => ?_
  refine Eq.trans (congrArg (val_main_v20 (F := Ideal) x0 x4) (funext fun a => ?_)) (v20_at x0 x4 b h j k)
  match a with | ⟨0, _⟩ => rfl | ⟨1, _⟩ => rfl | ⟨2, _⟩ => rfl | ⟨3, _⟩ => rfl

/-- The two broadcasts read the row sum at (b, h, j). -/
private theorem v23_at (j : Fin 2048) (d : Fin 64) :
    val_main_v23 (F := Ideal) x0 x4 (ix4 b h j d) = rowSum (qP x0 x4 b h) j := by
  rw [val_main_v23_apply, val_main_v22_apply]
  refine Eq.trans (congrArg (val_main_v21 (F := Ideal) x0 x4) (funext fun a => ?_)) (v21_at x0 x4 b h j)
  match a with | ⟨0, _⟩ => rfl | ⟨1, _⟩ => rfl | ⟨2, _⟩ => rfl

/-- The first softmax, over the features. -/
private theorem v24_at (j : Fin 2048) (d : Fin 64) :
    val_main_v24 (F := Ideal) x0 x4 (ix4 b h j d) = rowSm (qP x0 x4 b h) j d := by
  rw [val_main_v24_apply, v20_at, v23_at]
  rfl

/-- The fold of the maximum down feature column d, over the 2048 samples. -/
private theorem v25_at (d : Fin 64) :
    val_main_v25 (F := Ideal) x0 x4 (ix3 b h d)
      = (Finset.univ : Finset (Fin 2048)).fold max negInf (fun j => rowSm (qP x0 x4 b h) j d) := by
  unfold val_main_v25
  refine (Host.reduce_eq_fold_single _ (val_main_v24 (F := Ideal) x0 x4) _ reducesTo_S2x16x2048x64_S2x16x64_d2 (by decide) h_S_ (ix3 b h d)).trans ?_
  refine congrArg (fun f : Fin 2048 → EReal => Finset.fold max negInf f Finset.univ) (funext fun j => ?_)
  refine Eq.trans (congrArg (val_main_v24 (F := Ideal) x0 x4) (funext fun a => Fin.ext ?_)) (v24_at x0 x4 b h j d)
  match a with | ⟨0, _⟩ => rfl | ⟨1, _⟩ => rfl | ⟨2, _⟩ => rfl | ⟨3, _⟩ => rfl

/-- Joined with -∞ once more it is the column maximum. -/
private theorem v27_at (d : Fin 64) :
    val_main_v27 (F := Ideal) x0 x4 (ix3 b h d) = colMax (qP x0 x4 b h) d := by
  rw [val_main_v27_apply, val_main_v26_apply, val_main_cst_6_apply, v25_at]
  rfl

/-- The two broadcasts read the column maximum at (b, h, d). -/
private theorem v29_at (j : Fin 2048) (d : Fin 64) :
    val_main_v29 (F := Ideal) x0 x4 (ix4 b h j d) = colMax (qP x0 x4 b h) d := by
  rw [val_main_v29_apply, val_main_v28_apply]
  refine Eq.trans (congrArg (val_main_v27 (F := Ideal) x0 x4) (funext fun a => ?_)) (v27_at x0 x4 b h d)
  match a with | ⟨0, _⟩ => rfl | ⟨1, _⟩ => rfl | ⟨2, _⟩ => rfl

/-- The shifted exponential of the second softmax. -/
private theorem v31_at (j : Fin 2048) (d : Fin 64) :
    val_main_v31 (F := Ideal) x0 x4 (ix4 b h j d) = colExp (qP x0 x4 b h) j d := by
  rw [val_main_v31_apply, val_main_v30_apply, v24_at, v29_at]
  rfl

/-- The sum of the shifted exponentials over the 2048 samples: the host's initial word is zero. -/
private theorem v32_at (d : Fin 64) :
    val_main_v32 (F := Ideal) x0 x4 (ix3 b h d) = colSum (qP x0 x4 b h) d := by
  rw [val_main_v32_apply, val_main_cst_7_apply]
  refine (congrArg (· + _) Ideal.ofBits_zero_f32).trans ((zero_add _).trans ?_)
  refine Finset.sum_congr rfl fun k _ => ?_
  refine Eq.trans (congrArg (val_main_v31 (F := Ideal) x0 x4) (funext fun a => ?_)) (v31_at x0 x4 b h k d)
  match a with | ⟨0, _⟩ => rfl | ⟨1, _⟩ => rfl | ⟨2, _⟩ => rfl | ⟨3, _⟩ => rfl

/-- The two broadcasts read the column sum at (b, h, d). -/
private theorem v34_at (j : Fin 2048) (d : Fin 64) :
    val_main_v34 (F := Ideal) x0 x4 (ix4 b h j d) = colSum (qP x0 x4 b h) d := by
  rw [val_main_v34_apply, val_main_v33_apply]
  refine Eq.trans (congrArg (val_main_v32 (F := Ideal) x0 x4) (funext fun a => ?_)) (v32_at x0 x4 b h d)
  match a with | ⟨0, _⟩ => rfl | ⟨1, _⟩ => rfl | ⟨2, _⟩ => rfl

/-- The second softmax, over the samples. -/
private theorem v35_at (j : Fin 2048) (d : Fin 64) :
    val_main_v35 (F := Ideal) x0 x4 (ix4 b h j d) = colSm (qP x0 x4 b h) j d := by
  rw [val_main_v35_apply, v31_at, v34_at]
  rfl

/-- The context: the second softmax transposed times the gathered values, contracted over the samples. -/
private theorem v36_at (d e : Fin 64) :
    val_main_v36 (F := Ideal) x0 x2 x4 x5 (ix4 b h d e) = ctx (qP x0 x4 b h) (vP x2 x5 b h) d e := by
  rw [val_main_v36_apply]
  refine Finset.sum_congr rfl fun k _ => ?_
  have el : lidx_main_v36 (ix4 b h d e) k = ix4 b h k d := funext fun a => by
    match a with | ⟨0, _⟩ => rfl | ⟨1, _⟩ => rfl | ⟨2, _⟩ => rfl | ⟨3, _⟩ => rfl
  have er : ridx_main_v36 (ix4 b h d e) k = ix4 b h k e := funext fun a => by
    match a with | ⟨0, _⟩ => rfl | ⟨1, _⟩ => rfl | ⟨2, _⟩ => rfl | ⟨3, _⟩ => rfl
  rw [el, er, v35_at]

/-- The attention rows: the first softmax times the context, contracted over the features. -/
private theorem v37_at (j : Fin 2048) (e : Fin 64) :
    val_main_v37 (F := Ideal) x0 x2 x4 x5 (ix4 b h j e) = attn (qP x0 x4 b h) (vP x2 x5 b h) j e := by
  rw [val_main_v37_apply]
  refine Finset.sum_congr rfl fun k _ => ?_
  have el : lidx_main_v37 (ix4 b h j e) k = ix4 b h j k := funext fun a => by
    match a with | ⟨0, _⟩ => rfl | ⟨1, _⟩ => rfl | ⟨2, _⟩ => rfl | ⟨3, _⟩ => rfl
  have er : ridx_main_v37 (ix4 b h j e) k = ix4 b h k e := funext fun a => by
    match a with | ⟨0, _⟩ => rfl | ⟨1, _⟩ => rfl | ⟨2, _⟩ => rfl | ⟨3, _⟩ => rfl
  rw [el, er, v24_at, v36_at]

end Stages

/-- The reference's update rows read at (b, h, j, e): `upd` of the gathered query and value planes of (b, h). -/
theorem ref_upd_apply (x0 x2 : (⟨S2x16x4096x64, .f32⟩ : BufTy).Contents (Elt Ideal)) (x4 x5 : (⟨S2048, .i32⟩ : BufTy).Contents (Elt Ideal))
    (b : Fin 2) (h : Fin 16) (j : Fin 2048) (e : Fin 64) :
    val_main_v42 (F := Ideal) x0 x2 x4 x5 (ix4 b h j e)
      = upd (fun j d => val_main_v6 (F := Ideal) x0 x4 (ix4 b h j d)) (fun j d => val_main_v13 (F := Ideal) x2 x5 (ix4 b h j d)) j e := by
  rw [val_main_v42_apply, val_main_v39_apply, val_main_v41_apply, val_main_v38_apply, val_main_v40_apply,
    val_main_cst_8_apply, val_main_cst_9_apply, v37_at]
  rfl

end Cert.SampledAttn

end
-- ==== Proof.RefResult.lean ====
/-
  The reference's result array is the specified function: its scatter of the update rows sums, at row `s`,
  the rows `j` whose sampled query row is `s`; an update row is `upd` of the gathered planes; and a gathered
  plane reads the argument at the sampled rows.
-/
import proofs.«404377_j39393440039235_3_alg».proof.Proof.RefIndexed
import proofs.«404377_j39393440039235_3_alg».proof.Proof.RefMiddle

set_option maxRecDepth 16384

noncomputable section

namespace Cert.SampledAttn

open Cert.ReferenceIdeal Cert.ReferenceIdeal.Gen Cert.ReferenceIdeal.Read
open Idealize.ShloMosaic Idealize.ShloMosaic.TcCoe Idealize.SL.Sem Idealize.ShloMosaic.ValueIdx

/-- The reference's result as one whole-array function of the arguments. -/
theorem ref_result (x0 x2 : (⟨S2x16x4096x64, .f32⟩ : BufTy).Contents (Elt Ideal)) (x4 x5 : (⟨S2048, .i32⟩ : BufTy).Contents (Elt Ideal))
    (rq rk : Fin 2048 → Fin 4096) (hq : ∀ j : Fin 2048, x4 (ix1 j) = BitVec.ofNat 32 (rq j).val)
    (hk : ∀ j : Fin 2048, x5 (ix1 j) = BitVec.ofNat 32 (rk j).val) :
    val_main_v50 (F := Ideal) x0 x2 x4 x5 = result x0 x2 rq rk := by
  funext i
  obtain ⟨b, h, s, e, rfl⟩ : ∃ (b : Fin 2) (h : Fin 16) (s : Fin 4096) (e : Fin 64), i = ix4 b h s e :=
    ⟨i 0, i 1, i 2, i 3, eq_ix4 i⟩
  rw [scatter_apply x0 x2 x4 x5 rq hq b h s e]
  show _ = planeOut (fun s d => x0 (ix4 b h s d)) (fun s d => x2 (ix4 b h s d)) rq rk s e
  unfold planeOut
  refine Finset.sum_congr rfl fun j _ => ?_
  rw [ref_upd_apply x0 x2 x4 x5 b h j e]
  have eq : (fun (j : Fin 2048) (d : Fin 64) => val_main_v6 (F := Ideal) x0 x4 (ix4 b h j d))
      = fun j d => x0 (ix4 b h (rq j) d) := by
    funext j d; exact gatherQ_apply x0 x4 rq hq b h j d
  have ev : (fun (j : Fin 2048) (d : Fin 64) => val_main_v13 (F := Ideal) x2 x5 (ix4 b h j d))
      = fun j d => x2 (ix4 b h (rk j) d) := by
    funext j d; exact gatherV_apply x2 x5 rk hk b h j d
  rw [eq, ev]

end Cert.SampledAttn

end
-- ==== Proof.PreDecode.lean ====
import proofs.«404377_j39393440039235_3_alg».proof.Defs
import proofs.«404377_j39393440039235_3_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.SampledAttn

open Idealize.ShloMosaic Idealize.ShloMosaic.ValueIdx

/-- The scalar shape has one index: two of them agree at every one of their zero coordinates. -/
instance : Subsingleton Cert.Pre_finite_inputs.S_.Idx := ⟨fun a b => funext fun d => d.elim0⟩

/-- A word that is at least 0 and below 4096 as a signed number is below 4096 as an unsigned one: a word
    whose top bit is set reads as a negative number, which the first bound excludes, and a word whose top
    bit is clear reads the same both ways. -/
theorem toNat_lt_of_signed_range (w : BitVec 32) (h0 : IntOp.cmpi .sge w 0#32 = 1#1)
    (h1 : IntOp.cmpi .slt w 4096#32 = 1#1) : w.toNat < 4096 := by
  rw [IntOp.cmpi_sge] at h0
  rw [IntOp.cmpi_slt] at h1
  have e0 : (0#32 : BitVec 32).toInt = 0 := by decide
  have e1 : (4096#32 : BitVec 32).toInt = 4096 := by decide
  rw [e0] at h0
  rw [e1] at h1
  have hw := w.isLt
  rw [BitVec.toInt_eq_toNat_cond] at h0 h1
  split at h0 <;> omega

/-- A pointwise `and` of two bit vectors that is 1 at an index has both operands 1 there. -/
theorem andi_apply_eq_one {s : Shape} (a b : IVec s 1) (i : s.Idx) (h : andi a b i = 1#1) :
    a i = 1#1 ∧ b i = 1#1 :=
  IntOp.andi_eq_one.1 h

/-- One index test read back: when the `and`-reduction of `(0 ≤ x) ∧ (x < 4096)` over all 2048 words is 1,
    each word passes both comparisons against the broadcast constants, so each is below 4096. -/
theorem words_lt_of_all (x : IVec Cert.Pre_finite_inputs.S2048 32)
    (hb : Cert.Pre_finite_inputs.S_.BroadcastsInDim Cert.Pre_finite_inputs.S2048 (![] : Fin 0 → Fin Cert.Pre_finite_inputs.S2048.rank))
    (hr : Cert.Pre_finite_inputs.S2048.ReducesTo [0] Cert.Pre_finite_inputs.S_) (hu : 0 < Cert.Pre_finite_inputs.S_.numel)
    (h : Host.reduce IntOp.andi
          (andi (cmpi .sge x (broadcastInDim Cert.Pre_finite_inputs.S2048 ![] hb (constantI Cert.Pre_finite_inputs.S_ 32 0#32)))
                (cmpi .slt x (broadcastInDim Cert.Pre_finite_inputs.S2048 ![] hb (constantI Cert.Pre_finite_inputs.S_ 32 4096#32))))
          (constantI Cert.Pre_finite_inputs.S_ 1 1#1) hr hu ix0 = 1#1) :
    ∀ j : Fin 2048, (x (ix1 j)).toNat < 4096 := by
  intro j
  obtain ⟨h0, h1⟩ := andi_apply_eq_one _ _ _ (Host.reduce_andi_all _ _ hr hu ix0 h (ix1 j))
  exact toNat_lt_of_signed_range (x (ix1 j)) h0 h1

/-- The precondition's two index conjuncts, decoded: every sampled-row word names a row, `0 ≤ w < 4096`. -/
theorem rows_of_pre (x0 x1 x2 : FVec Ideal Cert.Pre_finite_inputs.S2x16x4096x64 .f32) (x3 : FVec Ideal Cert.Pre_finite_inputs.S2x4096 .f32)
    (x4 x5 : IVec Cert.Pre_finite_inputs.S2048 32)
    (h : Cert.Pre_finite_inputs.fn (F := Ideal) x0 x1 x2 x3 x4 x5 = fun _ => 1#1) :
    (∀ j : Fin 2048, (x4 (ix1 j)).toNat < 4096) ∧ (∀ j : Fin 2048, (x5 (ix1 j)).toNat < 4096) := by
  -- the predicate read at its one index: a nest of `and`s over six all-reductions
  have h' := congrFun h ix0
  dsimp only [Cert.Pre_finite_inputs.fn, Cert.Pre_finite_inputs.fn_part1] at h'
  -- the outermost `and` joins everything before with the test of the second index input;
  -- the next one joins the four float tests with the test of the first index input
  obtain ⟨h45, h5⟩ := andi_apply_eq_one _ _ _ h'
  obtain ⟨_, h4⟩ := andi_apply_eq_one _ _ _ h45
  exact ⟨words_lt_of_all x4 _ _ _ h4, words_lt_of_all x5 _ _ _ h5⟩

end Cert.SampledAttn

end
-- ==== Proof.lean ====
/-
  Sampled attention with a duplicate-merging scatter, kernel against reference, over the extended reals.

  Both programs take queries Q and values V of shape [2, 16, 4096, 64] and two vectors of 2048 sampled row
  numbers. For each (batch, head) plane they gather the sampled query rows q and value rows v, form
  rowSm q (a softmax over the 64 features), colSm q (a softmax of that over the 2048 samples), the 64 x 64
  context (colSm q)ᵀ · v, the product (rowSm q) · context, the update rows 4 · product + 2 · v, and add update
  row j into output row rq j of a zero plane (`Cert.SampledAttn.result`, Proof/Spec.lean).

  The kernel gathers and scatters by 0/1 matrices: row r of a 512-row chunk is selected for sample j when the
  row's number equals the sample's word, so a product with that matrix is the selected row (on the extended
  reals 0 · a = 0 and 1 · a = a for every a), eight chunks covering the 4096 rows; the reference gathers and
  scatters by index. The two agree exactly when every sample word names a row, 0 ≤ word < 4096 — outside that
  range the reference wraps or clamps the word while the kernel's selector matches no row —, and that range is
  the precondition's added conjunct. Nothing else about the inputs is used: the middle stages are the same
  operations on both sides, entry by entry.

  The three frames are the generated ones (the reference's is its run with the result dropped); the
  idealization rewrote nothing, so `preserves` is `True`.
-/
import proofs.«404377_j39393440039235_3_alg».proof.Defs
import proofs.«404377_j39393440039235_3_alg».proof.Proof.Gen.Kernel
import proofs.«404377_j39393440039235_3_alg».proof.Proof.Gen.Kernel.Skeleton
import proofs.«404377_j39393440039235_3_alg».proof.Proof.Gen.Kernel.Loops
import proofs.«404377_j39393440039235_3_alg».proof.Proof.Gen.Kernel.Launch
import proofs.«404377_j39393440039235_3_alg».proof.Proof.Gen.Kernel.Points
import proofs.«404377_j39393440039235_3_alg».proof.Proof.Gen.Kernel.Frame
import proofs.«404377_j39393440039235_3_alg».proof.Proof.Gen.KernelIdeal
import proofs.«404377_j39393440039235_3_alg».proof.Proof.Gen.KernelIdeal.Skeleton
import proofs.«404377_j39393440039235_3_alg».proof.Proof.Gen.KernelIdeal.Loops
import proofs.«404377_j39393440039235_3_alg».proof.Proof.Gen.KernelIdeal.Launch
import proofs.«404377_j39393440039235_3_alg».proof.Proof.Gen.KernelIdeal.Points
import proofs.«404377_j39393440039235_3_alg».proof.Proof.Gen.KernelIdeal.Frame
import proofs.«404377_j39393440039235_3_alg».proof.Proof.Gen.ReferenceIdeal
import proofs.«404377_j39393440039235_3_alg».proof.Proof.Gen.Pre_finite_inputs
import proofs.«404377_j39393440039235_3_alg».proof.Proof.Gen.ReferenceIdeal.Run
import proofs.«404377_j39393440039235_3_alg».proof.Proof.Gen.ReferenceIdeal.Read
import proofs.«404377_j39393440039235_3_alg».proof.Proof.KernelRun
import proofs.«404377_j39393440039235_3_alg».proof.Proof.RefResult
import proofs.«404377_j39393440039235_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- A word is the numeral of its own value. -/
theorem word_eq_ofNat (w : BitVec 32) : w = BitVec.ofNat 32 w.toNat :=
  BitVec.eq_of_toNat_eq (by rw [BitVec.toNat_ofNat]; exact (Nat.mod_eq_of_lt w.isLt).symm)

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition every sample word names a row; with the rows so named both programs end at
    `result` of the query and value arguments. -/
theorem algebraic : Cert.algebraic_KernelIdeal_ReferenceIdeal := by
  intro m ρ m' ρ' hpre hagree
  have hrows := fun c : Dev Cert.KernelIdeal.nD => Cert.SampledAttn.rows_of_pre _ _ _ _ _ _ (hpre c)
  let rq : Dev Cert.KernelIdeal.nD → Fin 2048 → Fin 4096 := fun c j =>
    ⟨(m ((c.tc : Thread Cert.KernelIdeal.nD Cert.KernelIdeal.τ).loc Cert.KernelIdeal.main_arg4) (ix1 j)).toNat, (hrows c).1 j⟩
  let rk : Dev Cert.KernelIdeal.nD → Fin 2048 → Fin 4096 := fun c j =>
    ⟨(m ((c.tc : Thread Cert.KernelIdeal.nD Cert.KernelIdeal.τ).loc Cert.KernelIdeal.main_arg5) (ix1 j)).toNat, (hrows c).2 j⟩
  have hq : ∀ (c : Dev Cert.KernelIdeal.nD) (j : Fin 2048),
      m ((c.tc : Thread Cert.KernelIdeal.nD Cert.KernelIdeal.τ).loc Cert.KernelIdeal.main_arg4) (ix1 j)
        = BitVec.ofNat 32 (rq c j).val := fun c j => word_eq_ofNat _
  have hk : ∀ (c : Dev Cert.KernelIdeal.nD) (j : Fin 2048),
      m ((c.tc : Thread Cert.KernelIdeal.nD Cert.KernelIdeal.τ).loc Cert.KernelIdeal.main_arg5) (ix1 j)
        = BitVec.ofNat 32 (rk c j).val := fun c j => word_eq_ofNat _
  refine ⟨fun c => Cert.SampledAttn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (rq c) (rk c),
    Cert.SampledAttn.kernel_run m ρ rq rk hq hk, ?_⟩
  refine (θ_run Cert.ReferenceIdeal.defs _ _).mono (fun r h c => ⟨?_, (h c).2⟩)
    (Cert.ReferenceIdeal.Value.run (F := Ideal) m' ρ')
  rw [(h c).1, Cert.ReferenceIdeal.Read.val_main_v50_eq, (hagree c).1, (hagree c).2.2.1, (hagree c).2.2.2.2.1,
    (hagree c).2.2.2.2.2]
  exact Cert.SampledAttn.ref_result _ _ _ _ (rq c) (rk c) (hq c) (hk c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
